-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S600000 : Shape := ⟨1, ![600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S64x128 .f32) (main_arg10 : FVec F S64x128 .f32) (main_arg11 : FVec F S64 .f32) (main_v33 : IVec S_ 1) : IVec S_ 1 :=
  let main_v34 : FVec F S64x128 .f32 := Host.absf main_arg9
  let main_cst_12 : FVec F S_ .f32 := constant S_ .f32 0x7F800000#32
  let main_v35 : FVec F S64x128 .f32 := broadcastInDim S64x128 ![] bcast_S_S64x128 main_cst_12
  let main_v36 : IVec S64x128 1 := cmpf .olt main_v34 main_v35
  let main_c_13 : IVec S_ 1 := constantI S_ 1 1#1
  let main_v37 : IVec S_ 1 := (fun x v => Host.reduce IntOp.andi x v reducesTo_S64x128_S_d0_1 h_S_) main_v36 main_c_13
  let main_v38 : IVec S_ 1 := andi main_v33 main_v37
  let main_v39 : FVec F S64x128 .f32 := Host.absf main_arg10
  let main_cst_14 : FVec F S_ .f32 := constant S_ .f32 0x7F800000#32
  let main_v40 : FVec F S64x128 .f32 := broadcastInDim S64x128 ![] bcast_S_S64x128 main_cst_14
  let main_v41 : IVec S64x128 1 := cmpf .olt main_v39 main_v40
  let main_c_15 : IVec S_ 1 := constantI S_ 1 1#1
  let main_v42 : IVec S_ 1 := (fun x v => Host.reduce IntOp.andi x v reducesTo_S64x128_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg6 : FVec F S128x128 .f32) (main_arg7 : FVec F S128x128 .f32) (main_arg8 : FVec F S128 .f32) (main_arg9 : FVec F S64x128 .f32) (main_arg10 : FVec F S64x128 .f32) (main_arg11 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_v33

def fn {F : FTy → Type} [FloatOps F] (main_arg0 : FVec F S100000x128 .f32) (main_arg1 : IVec S600000 32) (main_arg2 : IVec S600000 32) (main_arg3 : FVec F S128x128 .f32) (main_arg4 : FVec F S128x128 .f32) (main_arg5 : FVec F S128 .f32) (main_arg6 : FVec F S128x128 .f32) (main_arg7 : FVec F S128x128 .f32) (main_arg8 : FVec F S128 .f32) (main_arg9 : FVec F S64x128 .f32) (main_arg10 : FVec F S64x128 .f32) (main_arg11 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S100000x128 : Shape := ⟨2, ![100000, 128]⟩
abbrev S600000 : Shape := ⟨1, ![600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩
abbrev S100000 : Shape := ⟨1, ![100000]⟩
abbrev S600000x1 : Shape := ⟨2, ![600000, 1]⟩
abbrev S600000x128 : Shape := ⟨2, ![600000, 128]⟩
abbrev S100000x1 : Shape := ⟨2, ![100000, 1]⟩
abbrev S1x128 : Shape := ⟨2, ![1, 128]⟩
abbrev S2000x128 : Shape := ⟨2, ![2000, 128]⟩
abbrev S1x64 : Shape := ⟨2, ![1, 64]⟩
abbrev S100000x64 : Shape := ⟨2, ![100000, 64]⟩
abbrev S2000x64 : Shape := ⟨2, ![2000, 64]⟩
abbrev S128x64 : Shape := ⟨2, ![128, 64]⟩

abbrev nBuf : Space → Nat
  | .hbm => 78
  | .vmem => 27
  | .smem => 0
  | _ => 0

abbrev bufTy : (tb : Table) → Fin (tcTables nBuf tb) → BufTy
  | .hbm, ⟨0, _⟩ => ⟨S100000x128, .f32⟩
  | .hbm, ⟨1, _⟩ => ⟨S600000, .i32⟩
  | .hbm, ⟨2, _⟩ => ⟨S600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S64x128, .f32⟩
  | .hbm, ⟨10, _⟩ => ⟨S64x128, .f32⟩
  | .hbm, ⟨11, _⟩ => ⟨S64, .f32⟩
  | .hbm, ⟨12, _⟩ => ⟨S_, .f32⟩
  | .hbm, ⟨13, _⟩ => ⟨S600000, .f32⟩
  | .hbm, ⟨14, _⟩ => ⟨S_, .f32⟩
  | .hbm, ⟨15, _⟩ => ⟨S100000, .f32⟩
  | .hbm, ⟨16, _⟩ => ⟨S600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S600000, .i32⟩
  | .hbm, ⟨26, _⟩ => ⟨S600000, .i1⟩
  | .hbm, ⟨27, _⟩ => ⟨S_, .i32⟩
  | .hbm, ⟨28, _⟩ => ⟨S600000, .i32⟩
  | .hbm, ⟨29, _⟩ => ⟨S600000, .i32⟩
  | .hbm, ⟨30, _⟩ => ⟨S600000, .i32⟩
  | .hbm, ⟨31, _⟩ => ⟨S600000x1, .i32⟩
  | .hbm, ⟨32, _⟩ => ⟨S600000x128, .f32⟩
  | .hbm, ⟨33, _⟩ => ⟨S_, .f32⟩
  | .hbm, ⟨34, _⟩ => ⟨S100000x128, .f32⟩
  | .hbm, ⟨35, _⟩ => ⟨S600000x1, .i32⟩
  | .hbm, ⟨36, _⟩ => ⟨S100000x128, .f32⟩
  | .hbm, ⟨37, _⟩ => ⟨S100000x1, .f32⟩
  | .hbm, ⟨38, _⟩ => ⟨S100000x128, .f32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S_, .i32⟩
  | .hbm, ⟨43, _⟩ => ⟨S600000, .i32⟩
  | .hbm, ⟨44, _⟩ => ⟨S600000, .i1⟩
  | .hbm, ⟨45, _⟩ => ⟨S_, .i32⟩
  | .hbm, ⟨46, _⟩ => ⟨S600000, .i32⟩
  | .hbm, ⟨47, _⟩ => ⟨S600000, .i32⟩
  | .hbm, ⟨48, _⟩ => ⟨S600000, .i32⟩
  | .hbm, ⟨49, _⟩ => ⟨S600000x1, .i32⟩
  | .hbm, ⟨50, _⟩ => ⟨S600000x128, .f32⟩
  | .hbm, ⟨51, _⟩ => ⟨S_, .f32⟩
  | .hbm, ⟨52, _⟩ => ⟨S100000x128, .f32⟩
  | .hbm, ⟨53, _⟩ => ⟨S600000x1, .i32⟩
  | .hbm, ⟨54, _⟩ => ⟨S100000x128, .f32⟩
  | .hbm, ⟨55, _⟩ => ⟨S100000x1, .f32⟩
  | .hbm, ⟨56, _⟩ => ⟨S100000x128, .f32⟩
  | .hbm, ⟨57, _⟩ => ⟨S100000x128, .f32⟩
  | .hbm, ⟨58, _⟩ => ⟨S1x128, .f32⟩
  | .hbm, ⟨59, _⟩ => ⟨S100000x128, .f32⟩
  | .hbm, ⟨60, _⟩ => ⟨S_, .i32⟩
  | .hbm, ⟨61, _⟩ => ⟨S600000, .i32⟩
  | .hbm, ⟨62, _⟩ => ⟨S600000, .i1⟩
  | .hbm, ⟨63, _⟩ => ⟨S_, .i32⟩
  | .hbm, ⟨64, _⟩ => ⟨S600000, .i32⟩
  | .hbm, ⟨65, _⟩ => ⟨S600000, .i32⟩
  | .hbm, ⟨66, _⟩ => ⟨S600000, .i32⟩
  | .hbm, ⟨67, _⟩ => ⟨S600000x1, .i32⟩
  | .hbm, ⟨68, _⟩ => ⟨S600000x128, .f32⟩
  | .hbm, ⟨69, _⟩ => ⟨S_, .f32⟩
  | .hbm, ⟨70, _⟩ => ⟨S100000x128, .f32⟩
  | .hbm, ⟨71, _⟩ => ⟨S600000x1, .i32⟩
  | .hbm, ⟨72, _⟩ => ⟨S100000x128, .f32⟩
  | .hbm, ⟨73, _⟩ => ⟨S100000x1, .f32⟩
  | .hbm, ⟨74, _⟩ => ⟨S100000x128, .f32⟩
  | .hbm, ⟨75, _⟩ => ⟨S100000x128, .f32⟩
  | .hbm, ⟨76, _⟩ => ⟨S1x64, .f32⟩
  | .hbm, ⟨77, _⟩ => ⟨S100000x64, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S64x128, .f32⟩
  | .local _ .vmem, ⟨23, _⟩ => ⟨S64x128, .f32⟩
  | .local _ .vmem, ⟨24, _⟩ => ⟨S1x64, .f32⟩
  | .local _ .vmem, ⟨25, _⟩ => ⟨S2000x64, .f32⟩
  | .local _ .vmem, ⟨26, _⟩ => ⟨S2000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev main_v7 : Ref sig .tc := ⟨.hbm, 23, rfl⟩
abbrev main_c : Ref sig .tc := ⟨.hbm, 24, rfl⟩
abbrev main_v8 : Ref sig .tc := ⟨.hbm, 25, rfl⟩
abbrev main_v9 : Ref sig .tc := ⟨.hbm, 26, rfl⟩
abbrev main_c_3 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_4 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_5 : Ref sig .tc := ⟨.hbm, 42, rfl⟩
abbrev main_v23 : Ref sig .tc := ⟨.hbm, 43, rfl⟩
abbrev main_v24 : Ref sig .tc := ⟨.hbm, 44, rfl⟩
abbrev main_c_6 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_7 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c_8 : Ref sig .tc := ⟨.hbm, 60, rfl⟩
abbrev main_v38 : Ref sig .tc := ⟨.hbm, 61, rfl⟩
abbrev main_v39 : Ref sig .tc := ⟨.hbm, 62, rfl⟩
abbrev main_c_9 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_10 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S600000 : S_.BroadcastsInDim S600000 (![] : Fin 0 → Fin S600000.rank)
  bcast_S_S100000 : S_.BroadcastsInDim S100000 (![] : Fin 0 → Fin S100000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S64_S1x64 : S64.ShapeCasts S1x64
  inb_S64x128_S64x128_0_0 : ∀ a, (![0, 0] : Fin 2 → Nat) a + S64x128.size a ≤ S64x128.size a
  h_S64x128 : 0 < S64x128.numel
  transposes_S64x128_p1_0_S128x64 : S64x128.Transposes [1, 0] S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  scatter_S100000_S600000x1_S600000_n_0_0_1_wf : ScatterDims.WF S100000 S600000x1 S600000 [] [0] [0] 1
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S100000x128.size a
  hwx1_5 : ∀ i : grid1.Coords, EltTy.bits .f32 = 32 ∨ (Rect.block (s := S100000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x128.size a ≤ S64x128.size a
  hwx2_2 : ∀ i : grid2.Coords, EltTy.bits .f32 = 32 ∨ (Rect.block (s := S64x128) S64x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x128.size a ≤ S64x128.size a
  hwx2_3 : ∀ i : grid2.Coords, EltTy.bits .f32 = 32 ∨ (Rect.block (s := S64x128) S64x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x64.size a ≤ S100000x64.size a
  hwx2_5 : ∀ i : grid2.Coords, EltTy.bits .f32 = 32 ∨ (Rect.block (s := S100000x64) S2000x64.size (cc2_transform_5 i) (hinb2_5 i)).WholeWords (EltTy.packing .f32)

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v22) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v37) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v50) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S64x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S64x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v51) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v52) S2000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S600000 : Shape := ⟨1, ![600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩
abbrev S600000x1 : Shape := ⟨2, ![600000, 1]⟩
abbrev S600000x128 : Shape := ⟨2, ![600000, 128]⟩
abbrev S100000 : Shape := ⟨1, ![100000]⟩
abbrev S100000x1 : Shape := ⟨2, ![100000, 1]⟩
abbrev S1x128 : Shape := ⟨2, ![1, 128]⟩
abbrev S128x64 : Shape := ⟨2, ![128, 64]⟩
abbrev S100000x64 : Shape := ⟨2, ![100000, 64]⟩
abbrev S1x64 : Shape := ⟨2, ![1, 64]⟩

abbrev nBuf : Space → Nat
  | .hbm => 117
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S600000, .i32⟩
  | .hbm, ⟨2, _⟩ => ⟨S600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S64x128, .f32⟩
  | .hbm, ⟨10, _⟩ => ⟨S64x128, .f32⟩
  | .hbm, ⟨11, _⟩ => ⟨S64, .f32⟩
  | .hbm, ⟨12, _⟩ => ⟨S_, .i32⟩
  | .hbm, ⟨13, _⟩ => ⟨S600000, .i32⟩
  | .hbm, ⟨14, _⟩ => ⟨S600000, .i1⟩
  | .hbm, ⟨15, _⟩ => ⟨S_, .i32⟩
  | .hbm, ⟨16, _⟩ => ⟨S600000, .i32⟩
  | .hbm, ⟨17, _⟩ => ⟨S600000, .i32⟩
  | .hbm, ⟨18, _⟩ => ⟨S600000, .i32⟩
  | .hbm, ⟨19, _⟩ => ⟨S600000x1, .i32⟩
  | .hbm, ⟨20, _⟩ => ⟨S600000x128, .f32⟩
  | .hbm, ⟨21, _⟩ => ⟨S_, .f32⟩
  | .hbm, ⟨22, _⟩ => ⟨S100000x128, .f32⟩
  | .hbm, ⟨23, _⟩ => ⟨S600000x1, .i32⟩
  | .hbm, ⟨24, _⟩ => ⟨S100000x128, .f32⟩
  | .hbm, ⟨25, _⟩ => ⟨S_, .f32⟩
  | .hbm, ⟨26, _⟩ => ⟨S600000, .f32⟩
  | .hbm, ⟨27, _⟩ => ⟨S_, .f32⟩
  | .hbm, ⟨28, _⟩ => ⟨S100000, .f32⟩
  | .hbm, ⟨29, _⟩ => ⟨S600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S128x128, .f32⟩
  | .hbm, ⟨38, _⟩ => ⟨S100000x128, .f32⟩
  | .hbm, ⟨39, _⟩ => ⟨S128x128, .f32⟩
  | .hbm, ⟨40, _⟩ => ⟨S100000x128, .f32⟩
  | .hbm, ⟨41, _⟩ => ⟨S100000x128, .f32⟩
  | .hbm, ⟨42, _⟩ => ⟨S1x128, .f32⟩
  | .hbm, ⟨43, _⟩ => ⟨S100000x128, .f32⟩
  | .hbm, ⟨44, _⟩ => ⟨S100000x128, .f32⟩
  | .hbm, ⟨45, _⟩ => ⟨S_, .f32⟩
  | .hbm, ⟨46, _⟩ => ⟨S100000x128, .f32⟩
  | .hbm, ⟨47, _⟩ => ⟨S100000x128, .f32⟩
  | .hbm, ⟨48, _⟩ => ⟨S_, .i32⟩
  | .hbm, ⟨49, _⟩ => ⟨S600000, .i32⟩
  | .hbm, ⟨50, _⟩ => ⟨S600000, .i1⟩
  | .hbm, ⟨51, _⟩ => ⟨S_, .i32⟩
  | .hbm, ⟨52, _⟩ => ⟨S600000, .i32⟩
  | .hbm, ⟨53, _⟩ => ⟨S600000, .i32⟩
  | .hbm, ⟨54, _⟩ => ⟨S600000, .i32⟩
  | .hbm, ⟨55, _⟩ => ⟨S600000x1, .i32⟩
  | .hbm, ⟨56, _⟩ => ⟨S600000x128, .f32⟩
  | .hbm, ⟨57, _⟩ => ⟨S_, .f32⟩
  | .hbm, ⟨58, _⟩ => ⟨S100000x128, .f32⟩
  | .hbm, ⟨59, _⟩ => ⟨S600000x1, .i32⟩
  | .hbm, ⟨60, _⟩ => ⟨S100000x128, .f32⟩
  | .hbm, ⟨61, _⟩ => ⟨S_, .f32⟩
  | .hbm, ⟨62, _⟩ => ⟨S600000, .f32⟩
  | .hbm, ⟨63, _⟩ => ⟨S_, .f32⟩
  | .hbm, ⟨64, _⟩ => ⟨S100000, .f32⟩
  | .hbm, ⟨65, _⟩ => ⟨S600000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x128, .f32⟩
  | .hbm, ⟨72, _⟩ => ⟨S100000x128, .f32⟩
  | .hbm, ⟨73, _⟩ => ⟨S128x128, .f32⟩
  | .hbm, ⟨74, _⟩ => ⟨S100000x128, .f32⟩
  | .hbm, ⟨75, _⟩ => ⟨S128x128, .f32⟩
  | .hbm, ⟨76, _⟩ => ⟨S100000x128, .f32⟩
  | .hbm, ⟨77, _⟩ => ⟨S100000x128, .f32⟩
  | .hbm, ⟨78, _⟩ => ⟨S1x128, .f32⟩
  | .hbm, ⟨79, _⟩ => ⟨S100000x128, .f32⟩
  | .hbm, ⟨80, _⟩ => ⟨S100000x128, .f32⟩
  | .hbm, ⟨81, _⟩ => ⟨S_, .f32⟩
  | .hbm, ⟨82, _⟩ => ⟨S100000x128, .f32⟩
  | .hbm, ⟨83, _⟩ => ⟨S100000x128, .f32⟩
  | .hbm, ⟨84, _⟩ => ⟨S_, .i32⟩
  | .hbm, ⟨85, _⟩ => ⟨S600000, .i32⟩
  | .hbm, ⟨86, _⟩ => ⟨S600000, .i1⟩
  | .hbm, ⟨87, _⟩ => ⟨S_, .i32⟩
  | .hbm, ⟨88, _⟩ => ⟨S600000, .i32⟩
  | .hbm, ⟨89, _⟩ => ⟨S600000, .i32⟩
  | .hbm, ⟨90, _⟩ => ⟨S600000, .i32⟩
  | .hbm, ⟨91, _⟩ => ⟨S600000x1, .i32⟩
  | .hbm, ⟨92, _⟩ => ⟨S600000x128, .f32⟩
  | .hbm, ⟨93, _⟩ => ⟨S_, .f32⟩
  | .hbm, ⟨94, _⟩ => ⟨S100000x128, .f32⟩
  | .hbm, ⟨95, _⟩ => ⟨S600000x1, .i32⟩
  | .hbm, ⟨96, _⟩ => ⟨S100000x128, .f32⟩
  | .hbm, ⟨97, _⟩ => ⟨S_, .f32⟩
  | .hbm, ⟨98, _⟩ => ⟨S600000, .f32⟩
  | .hbm, ⟨99, _⟩ => ⟨S_, .f32⟩
  | .hbm, ⟨100, _⟩ => ⟨S100000, .f32⟩
  | .hbm, ⟨101, _⟩ => ⟨S600000x1, .i32⟩
  | .hbm, ⟨102, _⟩ => ⟨S100000, .f32⟩
  | .hbm, ⟨103, _⟩ => ⟨S_, .f32⟩
  | .hbm, ⟨104, _⟩ => ⟨S100000, .f32⟩
  | .hbm, ⟨105, _⟩ => ⟨S100000, .f32⟩
  | .hbm, ⟨106, _⟩ => ⟨S100000x1, .f32⟩
  | .hbm, ⟨107, _⟩ => ⟨S100000x128, .f32⟩
  | .hbm, ⟨108, _⟩ => ⟨S100000x128, .f32⟩
  | .hbm, ⟨109, _⟩ => ⟨S128x64, .f32⟩
  | .hbm, ⟨110, _⟩ => ⟨S100000x64, .f32⟩
  | .hbm, ⟨111, _⟩ => ⟨S128x64, .f32⟩
  | .hbm, ⟨112, _⟩ => ⟨S100000x64, .f32⟩
  | .hbm, ⟨113, _⟩ => ⟨S100000x64, .f32⟩
  | .hbm, ⟨114, _⟩ => ⟨S1x64, .f32⟩
  | .hbm, ⟨115, _⟩ => ⟨S100000x64, .f32⟩
  | .hbm, ⟨116, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_call0_cst : Ref sig .tc := ⟨.hbm, 45, rfl⟩
abbrev main_call0_v0 : Ref sig .tc := ⟨.hbm, 46, rfl⟩
abbrev main_v27 : Ref sig .tc := ⟨.hbm, 47, rfl⟩
abbrev main_c_4 : Ref sig .tc := ⟨.hbm, 48, rfl⟩
abbrev main_v28 : Ref sig .tc := ⟨.hbm, 49, rfl⟩
abbrev main_v29 : Ref sig .tc := ⟨.hbm, 50, rfl⟩
abbrev main_c_5 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_6 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_7 : Ref sig .tc := ⟨.hbm, 61, rfl⟩
abbrev main_v38 : Ref sig .tc := ⟨.hbm, 62, rfl⟩
abbrev main_cst_8 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_9 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_call1_cst : Ref sig .tc := ⟨.hbm, 81, rfl⟩
abbrev main_call1_v0 : Ref sig .tc := ⟨.hbm, 82, rfl⟩
abbrev main_v55 : Ref sig .tc := ⟨.hbm, 83, rfl⟩
abbrev main_c_10 : Ref sig .tc := ⟨.hbm, 84, rfl⟩
abbrev main_v56 : Ref sig .tc := ⟨.hbm, 85, rfl⟩
abbrev main_v57 : Ref sig .tc := ⟨.hbm, 86, rfl⟩
abbrev main_c_11 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_12 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_cst_13 : Ref sig .tc := ⟨.hbm, 97, rfl⟩
abbrev main_v66 : Ref sig .tc := ⟨.hbm, 98, rfl⟩
abbrev main_cst_14 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_cst_15 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.SageSpec.lean ====
/-
  One GraphSAGE layer with mean aggregation, as a function on the extended reals, node by node and output feature by
  output feature. With `h` the node features ([N, K]), `agg` the summed neighbour features ([N, K]), `deg` the number of
  incoming edges of each node ([N]), `ws`, `wn` the two weight matrices ([C, K], applied transposed) and `b` the bias ([C]):

      mean p k   = agg p k / max (deg p) 1
      lin p q    = (∑ k, h p k · ws q k) + (∑ k, mean p k · wn q k) + b q

  and a hidden layer takes `max (lin p q) 0`. Both programs compute exactly this; they differ in how the quotient is
  spelt: one divides by `max (deg p) 1`, the other multiplies by `1 / max (deg p) 1`. On the extended reals
  `x / d` is `x · d⁻¹` whenever `d ≠ 0`, and `max e 1` is never `0`, so the two spellings agree for every `x` and
  every `e`, the infinities included (`mul_one_div_max`): no finiteness of the inputs is needed.
-/
import Idealize.ShloMosaic.PureOps.Ideal
import Idealize.ShloMosaic.PureOps.Ideal.Laws
import Idealize.ShloMosaic.Lib.ValueIdx

noncomputable section

namespace SageSpec

open Idealize.ShloMosaic Idealize.ShloMosaic.ValueIdx

/-- The binary32 word `0x3F800000` denotes the real number 1. -/
theorem one_f32 : Ideal.ofBits .f32 0x3F800000#32 = 1 := by
  simp [Ideal.ofBits, Ideal.ieee]
  rw [← EReal.coe_mul, ← EReal.coe_one]
  exact congrArg _ (by norm_num)

/-- `max e 1` is never zero on the extended reals. -/
theorem max_one_ne_zero (e : EReal) : max e 1 ≠ 0 :=
  (lt_of_lt_of_le zero_lt_one (le_max_right e 1)).ne'

/-- Multiplying by the reciprocal of `max e 1` is dividing by it: both are `x · (max e 1)⁻¹`. -/
theorem mul_one_div_max (x e : EReal) : x * Ideal.div 1 (max e 1) = Ideal.div x (max e 1) := by
  unfold Ideal.div
  rw [if_neg (max_one_ne_zero e), if_neg (max_one_ne_zero e), one_mul]

/-- The neighbour mean: the summed neighbour features over the clamped in-degree of the node. -/
def mean {N K : Nat} (agg : (⟨2, ![N, K]⟩ : Shape).Idx → EReal) (deg : (⟨1, ![N]⟩ : Shape).Idx → EReal) :
    (⟨2, ![N, K]⟩ : Shape).Idx → EReal :=
  fun i => Ideal.div (agg i) (max (deg (ix1 ⟨(i 0).val, idx2_lt0 i⟩)) 1)

/-- The affine part of a layer at node `p`, output feature `q`. -/
def lin {N K C : Nat} (h hn : (⟨2, ![N, K]⟩ : Shape).Idx → EReal) (ws wn : (⟨2, ![C, K]⟩ : Shape).Idx → EReal)
    (b : (⟨1, ![C]⟩ : Shape).Idx → EReal) (p : Fin N) (q : Fin C) : EReal :=
  (∑ k : Fin K, h (ix2 p k) * ws (ix2 q k)) + (∑ k : Fin K, hn (ix2 p k) * wn (ix2 q k)) + b (ix1 q)

/-- A hidden layer: the affine part clamped below at zero, as an array over nodes and output features. -/
def hidden {N K C : Nat} (h hn : (⟨2, ![N, K]⟩ : Shape).Idx → EReal) (ws wn : (⟨2, ![C, K]⟩ : Shape).Idx → EReal)
    (b : (⟨1, ![C]⟩ : Shape).Idx → EReal) : (⟨2, ![N, C]⟩ : Shape).Idx → EReal :=
  fun i => max (lin h hn ws wn b ⟨(i 0).val, idx2_lt0 i⟩ ⟨(i 1).val, idx2_lt1 i⟩) 0

/-- The last layer: the affine part itself. -/
def last {N K C : Nat} (h hn : (⟨2, ![N, K]⟩ : Shape).Idx → EReal) (ws wn : (⟨2, ![C, K]⟩ : Shape).Idx → EReal)
    (b : (⟨1, ![C]⟩ : Shape).Idx → EReal) : (⟨2, ![N, C]⟩ : Shape).Idx → EReal :=
  fun i => lin h hn ws wn b ⟨(i 0).val, idx2_lt0 i⟩ ⟨(i 1).val, idx2_lt1 i⟩

theorem hidden_ix2 {N K C : Nat} (h hn : (⟨2, ![N, K]⟩ : Shape).Idx → EReal) (ws wn : (⟨2, ![C, K]⟩ : Shape).Idx → EReal)
    (b : (⟨1, ![C]⟩ : Shape).Idx → EReal) (p : Fin N) (q : Fin C) :
    hidden h hn ws wn b (ix2 p q) = max (lin h hn ws wn b p q) 0 := rfl

theorem last_ix2 {N K C : Nat} (h hn : (⟨2, ![N, K]⟩ : Shape).Idx → EReal) (ws wn : (⟨2, ![C, K]⟩ : Shape).Idx → EReal)
    (b : (⟨1, ![C]⟩ : Shape).Idx → EReal) (p : Fin N) (q : Fin C) :
    last h hn ws wn b (ix2 p q) = lin h hn ws wn b p q := rfl

end SageSpec

end
-- ==== Proof.KBody.lean ====
/-
  The dense layer body of one block of 2000 nodes, read at a node `r` of the block and an output feature `q`:
  the two products against the transposed weight blocks are sums over the 128 input features, the bias row is read at
  `q`, and the result is clamped below at zero. Format changes are the identity on the extended reals.
-/
import proofs.«128506_j50714973831907_1_alg».proof.Proof.KernelIdealFrame
import proofs.«128506_j50714973831907_1_alg».proof.Proof.SageSpec
import Idealize.ShloMosaic.Lib.Pipeline.Value
import Idealize.ShloMosaic.Lib.ValueIdx
import Idealize.ShloMosaic.PureOps.Ideal.Laws

noncomputable section

namespace Cert.KernelIdeal.DenseBody

open Cert.KernelIdeal Cert.KernelIdeal.Gen Cert.KernelIdeal.GenP Idealize.ShloMosaic Idealize.ShloMosaic.TcCoe
open Idealize.ShloMosaic.ValueIdx

/-! ## The 2000×128 by 128×128 product at an index -/

theorem lhs128_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs128_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs128_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs128_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The block product into a zero accumulator, at node `r` and feature `q`: the sum over the contracted feature. -/
theorem matmul128_apply (A : FVec Ideal S2000x128 .bf16) (T : FVec Ideal S128x128 .bf16) (r : Fin 2000) (q : Fin 128) :
    matmul (F := Ideal) dot_S2000x128_S128x128_S2000x128_1_0_0_1_n_n none A T (constant S2000x128 .f32 0x00000000#32) (ix2 r q)
      = ∑ k : Fin 128, A (ix2 r k) * T (ix2 k q) := by
  simp only [matmul]
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 r q) ((ValueIdx.contrEquiv1 dot_S2000x128_S128x128_S2000x128_1_0_0_1_n_n 128 rfl rfl).symm k) = ix2 r k := funext fun a => Fin.ext (by
    match a with
    | ⟨0, _⟩ => exact lhs128_0 _ _
    | ⟨1, _⟩ => exact (lhs128_1 _ _).trans hk)
  have er : dot_S2000x128_S128x128_S2000x128_1_0_0_1_n_n.rhsIdx (ix2 r q) ((ValueIdx.contrEquiv1 dot_S2000x128_S128x128_S2000x128_1_0_0_1_n_n 128 rfl rfl).symm k) = ix2 k q := funext fun a => Fin.ext (by
    match a with
    | ⟨0, _⟩ => exact (rhs128_0 _ _).trans hk
    | ⟨1, _⟩ => exact rhs128_1 _ _)
  rw [el, er]

/-- A 128×128 block transposed, read at `(k, q)`, is the block at `(q, k)`. -/
theorem transpose128_apply (W : FVec Ideal S128x128 .bf16) (k q : Fin 128) :
    transpose S128x128 [1, 0] W transposes_S128x128_p1_0_S128x128 (ix2 k q) = W (ix2 q k) :=
  transpose_apply [1, 0] W transposes_S128x128_p1_0_S128x128 (ix2 k q) (ix2 q k) (fun b => match b with
    | ⟨0, _⟩ => rfl
    | ⟨1, _⟩ => rfl)

/-- The product against a transposed weight block: feature `q` of node `r` is the sum over `k` of the node's feature
    `k` times the weight at `(q, k)`. -/
theorem mmT128_apply (A : FVec Ideal S2000x128 .bf16) (W : FVec Ideal S128x128 .bf16) (r : Fin 2000) (q : Fin 128) :
    matmul (F := Ideal) dot_S2000x128_S128x128_S2000x128_1_0_0_1_n_n none A
        (transpose S128x128 [1, 0] W transposes_S128x128_p1_0_S128x128) (constant S2000x128 .f32 0x00000000#32) (ix2 r q)
      = ∑ k : Fin 128, A (ix2 r k) * W (ix2 q k) := by
  rw [matmul128_apply]
  exact Finset.sum_congr rfl fun k _ => congrArg (A (ix2 r k) * ·) (transpose128_apply W k q)

/-- The bias row broadcast over the block's nodes, read at `(r, q)`, is the row at `q`. -/
theorem bias128_apply (b : FVec Ideal S1x128 .f32) (r : Fin 2000) (q : Fin 128) :
    broadcastTo S2000x128 (shapeCast S1x128 b shapeCasts_S1x128_S1x128) broadcasts_S1x128_S2000x128 (ix2 r q) = b (ix2 0 q) := by
  rw [shapeCast_self]
  exact broadcastTo_apply b broadcasts_S1x128_S2000x128 (ix2 r q) (ix2 0 q) (fun a => match a with
    | ⟨0, _⟩ => rfl
    | ⟨1, _⟩ => rfl)

/-! ## The 2000×128 by 128×64 product at an index -/

theorem lhs64_0 (i : S2000x64.Idx) (q : dot_S2000x128_S128x64_S2000x64_1_0_0_1_n_n.contr.Idx) :
    (dot_S2000x128_S128x64_S2000x64_1_0_0_1_n_n.lhsIdx i q 0).val = (i 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
theorem lhs64_1 (i : S2000x64.Idx) (q : dot_S2000x128_S128x64_S2000x64_1_0_0_1_n_n.contr.Idx) :
    (dot_S2000x128_S128x64_S2000x64_1_0_0_1_n_n.lhsIdx i q 1).val = (q ⟨0, by decide⟩).val :=
  dot_S2000x128_S128x64_S2000x64_1_0_0_1_n_n.lhsIdx_val_of_single rfl i q
theorem rhs64_0 (i : S2000x64.Idx) (q : dot_S2000x128_S128x64_S2000x64_1_0_0_1_n_n.contr.Idx) :
    (dot_S2000x128_S128x64_S2000x64_1_0_0_1_n_n.rhsIdx i q 0).val = (q ⟨0, by decide⟩).val :=
  dot_S2000x128_S128x64_S2000x64_1_0_0_1_n_n.rhsIdx_val_of_single rfl i q
theorem rhs64_1 (i : S2000x64.Idx) (q : dot_S2000x128_S128x64_S2000x64_1_0_0_1_n_n.contr.Idx) :
    (dot_S2000x128_S128x64_S2000x64_1_0_0_1_n_n.rhsIdx i q 1).val = (i 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-- The block product into a zero accumulator, at node `r` and feature `q`: the sum over the contracted feature. -/
theorem matmul64_apply (A : FVec Ideal S2000x128 .bf16) (T : FVec Ideal S128x64 .bf16) (r : Fin 2000) (q : Fin 64) :
    matmul (F := Ideal) dot_S2000x128_S128x64_S2000x64_1_0_0_1_n_n none A T (constant S2000x64 .f32 0x00000000#32) (ix2 r q)
      = ∑ k : Fin 128, A (ix2 r k) * T (ix2 k q) := by
  simp only [matmul]
  rw [Ideal.matmul_constant_zero_apply, ← Equiv.sum_comp (ValueIdx.contrEquiv1 dot_S2000x128_S128x64_S2000x64_1_0_0_1_n_n 128 rfl rfl).symm]
  refine Finset.sum_congr rfl fun k _ => ?_
  have hk := ValueIdx.contrEquiv1_symm_val dot_S2000x128_S128x64_S2000x64_1_0_0_1_n_n 128 rfl rfl k
  have el : dot_S2000x128_S128x64_S2000x64_1_0_0_1_n_n.lhsIdx (ix2 r q) ((ValueIdx.contrEquiv1 dot_S2000x128_S128x64_S2000x64_1_0_0_1_n_n 128 rfl rfl).symm k) = ix2 r k := funext fun a => Fin.ext (by
    match a with
    | ⟨0, _⟩ => exact lhs64_0 _ _
    | ⟨1, _⟩ => exact (lhs64_1 _ _).trans hk)
  have er : dot_S2000x128_S128x64_S2000x64_1_0_0_1_n_n.rhsIdx (ix2 r q) ((ValueIdx.contrEquiv1 dot_S2000x128_S128x64_S2000x64_1_0_0_1_n_n 128 rfl rfl).symm k) = ix2 k q := funext fun a => Fin.ext (by
    match a with
    | ⟨0, _⟩ => exact (rhs64_0 _ _).trans hk
    | ⟨1, _⟩ => exact rhs64_1 _ _)
  rw [el, er]

/-- A 64×128 block transposed, read at `(k, q)`, is the block at `(q, k)`. -/
theorem transpose64_apply (W : FVec Ideal S64x128 .bf16) (k : Fin 128) (q : Fin 64) :
    transpose S128x64 [1, 0] W transposes_S64x128_p1_0_S128x64 (ix2 k q) = W (ix2 q k) :=
  transpose_apply [1, 0] W transposes_S64x128_p1_0_S128x64 (ix2 k q) (ix2 q k) (fun b => match b with
    | ⟨0, _⟩ => rfl
    | ⟨1, _⟩ => rfl)

/-- The product against a transposed weight block: feature `q` of node `r` is the sum over `k` of the node's feature
    `k` times the weight at `(q, k)`. -/
theorem mmT64_apply (A : FVec Ideal S2000x128 .bf16) (W : FVec Ideal S64x128 .bf16) (r : Fin 2000) (q : Fin 64) :
    matmul (F := Ideal) dot_S2000x128_S128x64_S2000x64_1_0_0_1_n_n none A
        (transpose S128x64 [1, 0] W transposes_S64x128_p1_0_S128x64) (constant S2000x64 .f32 0x00000000#32) (ix2 r q)
      = ∑ k : Fin 128, A (ix2 r k) * W (ix2 q k) := by
  rw [matmul64_apply]
  exact Finset.sum_congr rfl fun k _ => congrArg (A (ix2 r k) * ·) (transpose64_apply W k q)

/-- The bias row broadcast over the block's nodes, read at `(r, q)`, is the row at `q`. -/
theorem bias64_apply (b : FVec Ideal S1x64 .f32) (r : Fin 2000) (q : Fin 64) :
    broadcastTo S2000x64 (shapeCast S1x64 b shapeCasts_S1x64_S1x64) broadcasts_S1x64_S2000x64 (ix2 r q) = b (ix2 0 q) := by
  rw [shapeCast_self]
  exact broadcastTo_apply b broadcasts_S1x64_S2000x64 (ix2 r q) (ix2 0 q) (fun a => match a with
    | ⟨0, _⟩ => rfl
    | ⟨1, _⟩ => rfl)

/-! ## The three block bodies -/

/-- Layer 1's block body at node `r`, feature `q`: the two products, the bias, the clamp at zero. -/
theorem pay0_apply (x0 x1 : Vec Ideal S2000x128 .f32) (x2 x3 : Vec Ideal S128x128 .f32) (x4 : Vec Ideal S1x128 .f32)
    (r : Fin 2000) (q : Fin 128) :
    k0_pay1 (F := Ideal) x0 x1 x2 x3 x4 (ix2 r q)
      = max ((∑ k : Fin 128, x0 (ix2 r k) * x2 (ix2 q k)) + (∑ k : Fin 128, x1 (ix2 r k) * x3 (ix2 q k)) + x4 (ix2 0 q)) 0 := by
  unfold k0_pay1
  dsimp only
  rw [maximumf_apply, addf_apply, addf_apply, mmT128_apply, mmT128_apply, bias128_apply, broadcast_apply]
  simp only [truncf_apply, shapeCast_self, Ideal.ofBits_def, Ideal.ofBits_zero_f32]

/-- Layer 2's block body: the same function of its five blocks as layer 1's. -/
theorem pay1_apply (x0 x1 : Vec Ideal S2000x128 .f32) (x2 x3 : Vec Ideal S128x128 .f32) (x4 : Vec Ideal S1x128 .f32)
    (r : Fin 2000) (q : Fin 128) :
    k1_pay1 (F := Ideal) x0 x1 x2 x3 x4 (ix2 r q)
      = max ((∑ k : Fin 128, x0 (ix2 r k) * x2 (ix2 q k)) + (∑ k : Fin 128, x1 (ix2 r k) * x3 (ix2 q k)) + x4 (ix2 0 q)) 0 := by
  unfold k1_pay1
  dsimp only
  rw [maximumf_apply, addf_apply, addf_apply, mmT128_apply, mmT128_apply, bias128_apply, broadcast_apply]
  simp only [truncf_apply, shapeCast_self, Ideal.ofBits_def, Ideal.ofBits_zero_f32]

/-- Layer 3's block body: 64 output features and no clamp. -/
theorem pay2_apply (x0 x1 : Vec Ideal S2000x128 .f32) (x2 x3 : Vec Ideal S64x128 .f32) (x4 : Vec Ideal S1x64 .f32)
    (r : Fin 2000) (q : Fin 64) :
    k2_pay1 (F := Ideal) x0 x1 x2 x3 x4 (ix2 r q)
      = (∑ k : Fin 128, x0 (ix2 r k) * x2 (ix2 q k)) + (∑ k : Fin 128, x1 (ix2 r k) * x3 (ix2 q k)) + x4 (ix2 0 q) := by
  unfold k2_pay1
  dsimp only
  rw [addf_apply, addf_apply, mmT64_apply, mmT64_apply, bias64_apply]
  simp only [truncf_apply, shapeCast_self]

end Cert.KernelIdeal.DenseBody

end
-- ==== Proof.KRegion0.lean ====
/-
  Layer 1's dense region, as one function of the arrays it is entered with. The grid has 50 points; point `t` works on
  the block of nodes `2000·t … 2000·t + 1999` of the node features and of the neighbour means, on the whole of the two
  weight matrices and of the bias row, and writes the same block of the output. So the row `r` of point `t`'s block is
  node `2000·t + r`, every node `n` lies in the block of point `n / 2000`, and what the region leaves in its output
  array is, node by node and feature by feature, the specification's hidden layer
  `max (h·Wsᵀ + hn·Wnᵀ + b) 0` of the entry contents.
-/
import proofs.«128506_j50714973831907_1_alg».proof.Proof.KernelIdealFrame
import proofs.«128506_j50714973831907_1_alg».proof.Proof.KBody
import proofs.«128506_j50714973831907_1_alg».proof.Proof.SageSpec
import Idealize.ShloMosaic.Lib.Pipeline.Value
import Idealize.ShloMosaic.Lib.ValueIdx

set_option maxRecDepth 16384

noncomputable section

namespace Cert.KernelIdeal.Region0

open Cert.KernelIdeal Cert.KernelIdeal.Gen Cert.KernelIdeal.GenP Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

abbrev hArr (c : Dev nD) : S100000x128.Idx → EReal := V c main_arg0
abbrev nArr (c : Dev nD) : S100000x128.Idx → EReal := V c main_v20
abbrev wsArr (c : Dev nD) : S128x128.Idx → EReal := V c main_arg3
abbrev wnArr (c : Dev nD) : S128x128.Idx → EReal := V c main_arg4
abbrev bRow (c : Dev nD) : S1x128.Idx → EReal := V c main_v21

/-- The bias as a vector over the output features: the entries of its one row. -/
def bVec (c : Dev nD) : S128.Idx → EReal := fun j => bRow V c (ix2 0 ⟨(j 0).val, (j 0).isLt⟩)

/-- What the output array holds after the region. -/
def G (c : Dev nD) : S100000x128.Idx → EReal :=
  SageSpec.hidden (hArr V c) (nArr V c) (wsArr V c) (wnArr V c) (bVec V c)

/-- The printed index maps, decided over the 50 grid points: the node blocks move with the point, the weights and the
    bias stay. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The node a block's row `r` is, at grid point `t`: blocks are 2000 consecutive nodes. -/
def row (t : Fin cfg0.N) (r : Fin 2000) : Fin 100000 :=
  ⟨t.val * 2000 + r.val, by have h1 := t.isLt; have h2 := r.isLt; have h3 : cfg0.N = 50 := N_0; omega⟩

/-- The output block's entry `(r, q)` at point `t` is the array's entry `(2000·t + r, q)`; likewise for each input block. -/
theorem emb_out (t : Fin cfg0.N) (r : Fin 2000) (q : Fin 128) :
    ((cfg0.win 5).blk t).view.emb (ix2 r q) = ix2 (row t r) q := by
  refine funext fun a => Fin.ext ?_
  obtain ⟨e00, e01, e10, e11, e20, e21, e30, e31, e40, e41, e50, e51⟩ := idx_facts t
  match a with
  | ⟨0, _⟩ => show win0_5.index t (0 : Fin 2) * 2000 + 1 * r.val = t.val * 2000 + r.val; omega
  | ⟨1, _⟩ => show win0_5.index t (1 : Fin 2) * 128 + 1 * q.val = q.val; omega

theorem read_h (c : Dev nD) (t : Fin cfg0.N) (r : Fin 2000) (k : Fin 128) :
    iblk0 V c 0 t (ix2 r k) = hArr V c (ix2 (row t r) k) := by
  show V c main_arg0 (((cfg0.win 0).blk t).view.emb (ix2 r k)) = V c main_arg0 (ix2 (row t r) k)
  refine congrArg _ (funext fun a => Fin.ext ?_)
  obtain ⟨e00, e01, e10, e11, e20, e21, e30, e31, e40, e41, e50, e51⟩ := idx_facts t
  match a with
  | ⟨0, _⟩ => show win0_0.index t (0 : Fin 2) * 2000 + 1 * r.val = t.val * 2000 + r.val; omega
  | ⟨1, _⟩ => show win0_0.index t (1 : Fin 2) * 128 + 1 * k.val = k.val; omega

theorem read_n (c : Dev nD) (t : Fin cfg0.N) (r : Fin 2000) (k : Fin 128) :
    iblk0 V c 1 t (ix2 r k) = nArr V c (ix2 (row t r) k) := by
  show V c main_v20 (((cfg0.win 1).blk t).view.emb (ix2 r k)) = V c main_v20 (ix2 (row t r) k)
  refine congrArg _ (funext fun a => Fin.ext ?_)
  obtain ⟨e00, e01, e10, e11, e20, e21, e30, e31, e40, e41, e50, e51⟩ := idx_facts t
  match a with
  | ⟨0, _⟩ => show win0_1.index t (0 : Fin 2) * 2000 + 1 * r.val = t.val * 2000 + r.val; omega
  | ⟨1, _⟩ => show win0_1.index t (1 : Fin 2) * 128 + 1 * k.val = k.val; omega

theorem read_ws (c : Dev nD) (t : Fin cfg0.N) (q k : Fin 128) :
    iblk0 V c 2 t (ix2 q k) = wsArr V c (ix2 q k) := by
  show V c main_arg3 (((cfg0.win 2).blk t).view.emb (ix2 q k)) = V c main_arg3 (ix2 q k)
  refine congrArg _ (funext fun a => Fin.ext ?_)
  obtain ⟨e00, e01, e10, e11, e20, e21, e30, e31, e40, e41, e50, e51⟩ := idx_facts t
  match a with
  | ⟨0, _⟩ => show win0_2.index t (0 : Fin 2) * 128 + 1 * q.val = q.val; omega
  | ⟨1, _⟩ => show win0_2.index t (1 : Fin 2) * 128 + 1 * k.val = k.val; omega

theorem read_wn (c : Dev nD) (t : Fin cfg0.N) (q k : Fin 128) :
    iblk0 V c 3 t (ix2 q k) = wnArr V c (ix2 q k) := by
  show V c main_arg4 (((cfg0.win 3).blk t).view.emb (ix2 q k)) = V c main_arg4 (ix2 q k)
  refine congrArg _ (funext fun a => Fin.ext ?_)
  obtain ⟨e00, e01, e10, e11, e20, e21, e30, e31, e40, e41, e50, e51⟩ := idx_facts t
  match a with
  | ⟨0, _⟩ => show win0_3.index t (0 : Fin 2) * 128 + 1 * q.val = q.val; omega
  | ⟨1, _⟩ => show win0_3.index t (1 : Fin 2) * 128 + 1 * k.val = k.val; omega

theorem read_b (c : Dev nD) (t : Fin cfg0.N) (q : Fin 128) :
    iblk0 V c 4 t (ix2 0 q) = bRow V c (ix2 0 q) := by
  show V c main_v21 (((cfg0.win 4).blk t).view.emb (ix2 0 q)) = V c main_v21 (ix2 0 q)
  refine congrArg _ (funext fun a => Fin.ext ?_)
  obtain ⟨e00, e01, e10, e11, e20, e21, e30, e31, e40, e41, e50, e51⟩ := idx_facts t
  match a with
  | ⟨0, _⟩ => show win0_4.index t (0 : Fin 2) * 1 + 1 * 0 = 0; omega
  | ⟨1, _⟩ => show win0_4.index t (1 : Fin 2) * 128 + 1 * q.val = q.val; omega

/-- What point `t` writes back is block `t` of `G`. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz]
  simp only [View.ld_unit_zero (S := S2000x128) hz, View.ld_unit_zero (S := S128x128) hz, View.ld_unit_zero (S := S1x128) hz]
  funext j
  obtain ⟨r, q, rfl⟩ : ∃ (r : Fin 2000) (q : Fin 128), j = ix2 r q := ⟨j 0, j 1, eq_ix2 j⟩
  show k0_pay1 (iblk0 V c 0 t) (iblk0 V c 1 t) (iblk0 V c 2 t) (iblk0 V c 3 t) (iblk0 V c 4 t) (ix2 r q)
    = G V c (((cfg0.win 5).blk t).view.emb (ix2 r q))
  rw [emb_out]
  refine (DenseBody.pay0_apply (iblk0 V c 0 t) (iblk0 V c 1 t) (iblk0 V c 2 t) (iblk0 V c 3 t) (iblk0 V c 4 t) r q).trans ?_
  unfold G
  rw [SageSpec.hidden_ix2]
  unfold SageSpec.lin
  simp only [read_h, read_n, read_ws, read_wn, read_b]
  rfl

/-- Membership in point `t`'s output block, coordinate by coordinate. -/
theorem mem_blk (t : Fin cfg0.N) (i : S100000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v22).slice (win0_5.rect t)).set ↔ _
  rw [View.set_slice_whole, Rect.mem_set_unit]
  exact Iff.rfl

/-- Every node lies in the block of the grid point `node / 2000`. -/
theorem cover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 50 := N_0
  refine ⟨⟨(i 0).val / 2000, by omega⟩, flush0_5 _, ?_⟩
  obtain ⟨e00, e01, e10, e11, e20, e21, e30, e31, e40, e41, e50, e51⟩ := idx_facts ⟨(i 0).val / 2000, by omega⟩
  rw [mem_blk]
  intro a
  match a with
  | ⟨0, _⟩ =>
    show win0_5.index ⟨(i 0).val / 2000, _⟩ (0 : Fin 2) * 2000 ≤ (i 0).val ∧ (i 0).val < win0_5.index ⟨(i 0).val / 2000, _⟩ (0 : Fin 2) * 2000 + 2000
    rw [e50]; show (i 0).val / 2000 * 2000 ≤ (i 0).val ∧ (i 0).val < (i 0).val / 2000 * 2000 + 2000; omega
  | ⟨1, _⟩ =>
    show win0_5.index ⟨(i 0).val / 2000, _⟩ (1 : Fin 2) * 128 ≤ (i 1).val ∧ (i 1).val < win0_5.index ⟨(i 0).val / 2000, _⟩ (1 : Fin 2) * 128 + 128
    rw [e51]; omega

/-- The layer's output array after the region: the specification's hidden layer of the arrays the region was
    entered with. -/
theorem region_val (c : Dev nD) : (dat0 V c).arrAt 5 cfg0.N = G V c :=
  (dat0 V c).arrAt_eq_of_cover 5 (G V c) (fun t _ => flushed_eq V c t) (cover)

end Cert.KernelIdeal.Region0

end
-- ==== Proof.KRegion1.lean ====
/-
  Layer 2's dense region, as one function of the arrays it is entered with. The grid has 50 points; point `t` works on
  the block of nodes `2000·t … 2000·t + 1999` of the node features and of the neighbour means, on the whole of the two
  weight matrices and of the bias row, and writes the same block of the output. So the row `r` of point `t`'s block is
  node `2000·t + r`, every node `n` lies in the block of point `n / 2000`, and what the region leaves in its output
  array is, node by node and feature by feature, the specification's hidden layer
  `max (h·Wsᵀ + hn·Wnᵀ + b) 0` of the entry contents.
-/
import proofs.«128506_j50714973831907_1_alg».proof.Proof.KernelIdealFrame
import proofs.«128506_j50714973831907_1_alg».proof.Proof.KBody
import proofs.«128506_j50714973831907_1_alg».proof.Proof.SageSpec
import Idealize.ShloMosaic.Lib.Pipeline.Value
import Idealize.ShloMosaic.Lib.ValueIdx

set_option maxRecDepth 16384

noncomputable section

namespace Cert.KernelIdeal.Region1

open Cert.KernelIdeal Cert.KernelIdeal.Gen Cert.KernelIdeal.GenP Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

abbrev hArr (c : Dev nD) : S100000x128.Idx → EReal := V c main_v22
abbrev nArr (c : Dev nD) : S100000x128.Idx → EReal := V c main_v35
abbrev wsArr (c : Dev nD) : S128x128.Idx → EReal := V c main_arg6
abbrev wnArr (c : Dev nD) : S128x128.Idx → EReal := V c main_arg7
abbrev bRow (c : Dev nD) : S1x128.Idx → EReal := V c main_v36

/-- The bias as a vector over the output features: the entries of its one row. -/
def bVec (c : Dev nD) : S128.Idx → EReal := fun j => bRow V c (ix2 0 ⟨(j 0).val, (j 0).isLt⟩)

/-- What the output array holds after the region. -/
def G (c : Dev nD) : S100000x128.Idx → EReal :=
  SageSpec.hidden (hArr V c) (nArr V c) (wsArr V c) (wnArr V c) (bVec V c)

/-- The printed index maps, decided over the 50 grid points: the node blocks move with the point, the weights and the
    bias stay. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The node a block's row `r` is, at grid point `t`: blocks are 2000 consecutive nodes. -/
def row (t : Fin cfg1.N) (r : Fin 2000) : Fin 100000 :=
  ⟨t.val * 2000 + r.val, by have h1 := t.isLt; have h2 := r.isLt; have h3 : cfg1.N = 50 := N_1; omega⟩

/-- The output block's entry `(r, q)` at point `t` is the array's entry `(2000·t + r, q)`; likewise for each input block. -/
theorem emb_out (t : Fin cfg1.N) (r : Fin 2000) (q : Fin 128) :
    ((cfg1.win 5).blk t).view.emb (ix2 r q) = ix2 (row t r) q := by
  refine funext fun a => Fin.ext ?_
  obtain ⟨e00, e01, e10, e11, e20, e21, e30, e31, e40, e41, e50, e51⟩ := idx_facts t
  match a with
  | ⟨0, _⟩ => show win1_5.index t (0 : Fin 2) * 2000 + 1 * r.val = t.val * 2000 + r.val; omega
  | ⟨1, _⟩ => show win1_5.index t (1 : Fin 2) * 128 + 1 * q.val = q.val; omega

theorem read_h (c : Dev nD) (t : Fin cfg1.N) (r : Fin 2000) (k : Fin 128) :
    iblk1 V c 0 t (ix2 r k) = hArr V c (ix2 (row t r) k) := by
  show V c main_v22 (((cfg1.win 0).blk t).view.emb (ix2 r k)) = V c main_v22 (ix2 (row t r) k)
  refine congrArg _ (funext fun a => Fin.ext ?_)
  obtain ⟨e00, e01, e10, e11, e20, e21, e30, e31, e40, e41, e50, e51⟩ := idx_facts t
  match a with
  | ⟨0, _⟩ => show win1_0.index t (0 : Fin 2) * 2000 + 1 * r.val = t.val * 2000 + r.val; omega
  | ⟨1, _⟩ => show win1_0.index t (1 : Fin 2) * 128 + 1 * k.val = k.val; omega

theorem read_n (c : Dev nD) (t : Fin cfg1.N) (r : Fin 2000) (k : Fin 128) :
    iblk1 V c 1 t (ix2 r k) = nArr V c (ix2 (row t r) k) := by
  show V c main_v35 (((cfg1.win 1).blk t).view.emb (ix2 r k)) = V c main_v35 (ix2 (row t r) k)
  refine congrArg _ (funext fun a => Fin.ext ?_)
  obtain ⟨e00, e01, e10, e11, e20, e21, e30, e31, e40, e41, e50, e51⟩ := idx_facts t
  match a with
  | ⟨0, _⟩ => show win1_1.index t (0 : Fin 2) * 2000 + 1 * r.val = t.val * 2000 + r.val; omega
  | ⟨1, _⟩ => show win1_1.index t (1 : Fin 2) * 128 + 1 * k.val = k.val; omega

theorem read_ws (c : Dev nD) (t : Fin cfg1.N) (q k : Fin 128) :
    iblk1 V c 2 t (ix2 q k) = wsArr V c (ix2 q k) := by
  show V c main_arg6 (((cfg1.win 2).blk t).view.emb (ix2 q k)) = V c main_arg6 (ix2 q k)
  refine congrArg _ (funext fun a => Fin.ext ?_)
  obtain ⟨e00, e01, e10, e11, e20, e21, e30, e31, e40, e41, e50, e51⟩ := idx_facts t
  match a with
  | ⟨0, _⟩ => show win1_2.index t (0 : Fin 2) * 128 + 1 * q.val = q.val; omega
  | ⟨1, _⟩ => show win1_2.index t (1 : Fin 2) * 128 + 1 * k.val = k.val; omega

theorem read_wn (c : Dev nD) (t : Fin cfg1.N) (q k : Fin 128) :
    iblk1 V c 3 t (ix2 q k) = wnArr V c (ix2 q k) := by
  show V c main_arg7 (((cfg1.win 3).blk t).view.emb (ix2 q k)) = V c main_arg7 (ix2 q k)
  refine congrArg _ (funext fun a => Fin.ext ?_)
  obtain ⟨e00, e01, e10, e11, e20, e21, e30, e31, e40, e41, e50, e51⟩ := idx_facts t
  match a with
  | ⟨0, _⟩ => show win1_3.index t (0 : Fin 2) * 128 + 1 * q.val = q.val; omega
  | ⟨1, _⟩ => show win1_3.index t (1 : Fin 2) * 128 + 1 * k.val = k.val; omega

theorem read_b (c : Dev nD) (t : Fin cfg1.N) (q : Fin 128) :
    iblk1 V c 4 t (ix2 0 q) = bRow V c (ix2 0 q) := by
  show V c main_v36 (((cfg1.win 4).blk t).view.emb (ix2 0 q)) = V c main_v36 (ix2 0 q)
  refine congrArg _ (funext fun a => Fin.ext ?_)
  obtain ⟨e00, e01, e10, e11, e20, e21, e30, e31, e40, e41, e50, e51⟩ := idx_facts t
  match a with
  | ⟨0, _⟩ => show win1_4.index t (0 : Fin 2) * 1 + 1 * 0 = 0; omega
  | ⟨1, _⟩ => show win1_4.index t (1 : Fin 2) * 128 + 1 * q.val = q.val; omega

/-- What point `t` writes back is block `t` of `G`. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S2000x128) hz, View.ld_unit_zero (S := S128x128) hz, View.ld_unit_zero (S := S1x128) hz]
  funext j
  obtain ⟨r, q, rfl⟩ : ∃ (r : Fin 2000) (q : Fin 128), j = ix2 r q := ⟨j 0, j 1, eq_ix2 j⟩
  show k1_pay1 (iblk1 V c 0 t) (iblk1 V c 1 t) (iblk1 V c 2 t) (iblk1 V c 3 t) (iblk1 V c 4 t) (ix2 r q)
    = G V c (((cfg1.win 5).blk t).view.emb (ix2 r q))
  rw [emb_out]
  refine (DenseBody.pay1_apply (iblk1 V c 0 t) (iblk1 V c 1 t) (iblk1 V c 2 t) (iblk1 V c 3 t) (iblk1 V c 4 t) r q).trans ?_
  unfold G
  rw [SageSpec.hidden_ix2]
  unfold SageSpec.lin
  simp only [read_h, read_n, read_ws, read_wn, read_b]
  rfl

/-- Membership in point `t`'s output block, coordinate by coordinate. -/
theorem mem_blk (t : Fin cfg1.N) (i : S100000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v37).slice (win1_5.rect t)).set ↔ _
  rw [View.set_slice_whole, Rect.mem_set_unit]
  exact Iff.rfl

/-- Every node lies in the block of the grid point `node / 2000`. -/
theorem cover (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 50 := N_1
  refine ⟨⟨(i 0).val / 2000, by omega⟩, flush1_5 _, ?_⟩
  obtain ⟨e00, e01, e10, e11, e20, e21, e30, e31, e40, e41, e50, e51⟩ := idx_facts ⟨(i 0).val / 2000, by omega⟩
  rw [mem_blk]
  intro a
  match a with
  | ⟨0, _⟩ =>
    show win1_5.index ⟨(i 0).val / 2000, _⟩ (0 : Fin 2) * 2000 ≤ (i 0).val ∧ (i 0).val < win1_5.index ⟨(i 0).val / 2000, _⟩ (0 : Fin 2) * 2000 + 2000
    rw [e50]; show (i 0).val / 2000 * 2000 ≤ (i 0).val ∧ (i 0).val < (i 0).val / 2000 * 2000 + 2000; omega
  | ⟨1, _⟩ =>
    show win1_5.index ⟨(i 0).val / 2000, _⟩ (1 : Fin 2) * 128 ≤ (i 1).val ∧ (i 1).val < win1_5.index ⟨(i 0).val / 2000, _⟩ (1 : Fin 2) * 128 + 128
    rw [e51]; omega

/-- The layer's output array after the region: the specification's hidden layer of the arrays the region was
    entered with. -/
theorem region_val (c : Dev nD) : (dat1 V c).arrAt 5 cfg1.N = G V c :=
  (dat1 V c).arrAt_eq_of_cover 5 (G V c) (fun t _ => flushed_eq V c t) (cover)

end Cert.KernelIdeal.Region1

end
-- ==== Proof.KRegion2.lean ====
/-
  Layer 3's dense region, as one function of the arrays it is entered with. The grid has 50 points; point `t` works on
  the block of nodes `2000·t … 2000·t + 1999` of the node features and of the neighbour means, on the whole of the two
  weight matrices and of the bias row, and writes the same block of the output. So the row `r` of point `t`'s block is
  node `2000·t + r`, every node `n` lies in the block of point `n / 2000`, and what the region leaves in its output
  array is, node by node and feature by feature, the specification's last layer
  `h·Wsᵀ + hn·Wnᵀ + b` of the entry contents.
-/
import proofs.«128506_j50714973831907_1_alg».proof.Proof.KernelIdealFrame
import proofs.«128506_j50714973831907_1_alg».proof.Proof.KBody
import proofs.«128506_j50714973831907_1_alg».proof.Proof.SageSpec
import Idealize.ShloMosaic.Lib.Pipeline.Value
import Idealize.ShloMosaic.Lib.ValueIdx

set_option maxRecDepth 16384

noncomputable section

namespace Cert.KernelIdeal.Region2

open Cert.KernelIdeal Cert.KernelIdeal.Gen Cert.KernelIdeal.GenP Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

abbrev hArr (c : Dev nD) : S100000x128.Idx → EReal := V c main_v37
abbrev nArr (c : Dev nD) : S100000x128.Idx → EReal := V c main_v50
abbrev wsArr (c : Dev nD) : S64x128.Idx → EReal := V c main_arg9
abbrev wnArr (c : Dev nD) : S64x128.Idx → EReal := V c main_arg10
abbrev bRow (c : Dev nD) : S1x64.Idx → EReal := V c main_v51

/-- The bias as a vector over the output features: the entries of its one row. -/
def bVec (c : Dev nD) : S64.Idx → EReal := fun j => bRow V c (ix2 0 ⟨(j 0).val, (j 0).isLt⟩)

/-- What the output array holds after the region. -/
def G (c : Dev nD) : S100000x64.Idx → EReal :=
  SageSpec.last (hArr V c) (nArr V c) (wsArr V c) (wnArr V c) (bVec V c)

/-- The printed index maps, decided over the 50 grid points: the node blocks move with the point, the weights and the
    bias stay. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The node a block's row `r` is, at grid point `t`: blocks are 2000 consecutive nodes. -/
def row (t : Fin cfg2.N) (r : Fin 2000) : Fin 100000 :=
  ⟨t.val * 2000 + r.val, by have h1 := t.isLt; have h2 := r.isLt; have h3 : cfg2.N = 50 := N_2; omega⟩

/-- The output block's entry `(r, q)` at point `t` is the array's entry `(2000·t + r, q)`; likewise for each input block. -/
theorem emb_out (t : Fin cfg2.N) (r : Fin 2000) (q : Fin 64) :
    ((cfg2.win 5).blk t).view.emb (ix2 r q) = ix2 (row t r) q := by
  refine funext fun a => Fin.ext ?_
  obtain ⟨e00, e01, e10, e11, e20, e21, e30, e31, e40, e41, e50, e51⟩ := idx_facts t
  match a with
  | ⟨0, _⟩ => show win2_5.index t (0 : Fin 2) * 2000 + 1 * r.val = t.val * 2000 + r.val; omega
  | ⟨1, _⟩ => show win2_5.index t (1 : Fin 2) * 64 + 1 * q.val = q.val; omega

theorem read_h (c : Dev nD) (t : Fin cfg2.N) (r : Fin 2000) (k : Fin 128) :
    iblk2 V c 0 t (ix2 r k) = hArr V c (ix2 (row t r) k) := by
  show V c main_v37 (((cfg2.win 0).blk t).view.emb (ix2 r k)) = V c main_v37 (ix2 (row t r) k)
  refine congrArg _ (funext fun a => Fin.ext ?_)
  obtain ⟨e00, e01, e10, e11, e20, e21, e30, e31, e40, e41, e50, e51⟩ := idx_facts t
  match a with
  | ⟨0, _⟩ => show win2_0.index t (0 : Fin 2) * 2000 + 1 * r.val = t.val * 2000 + r.val; omega
  | ⟨1, _⟩ => show win2_0.index t (1 : Fin 2) * 128 + 1 * k.val = k.val; omega

theorem read_n (c : Dev nD) (t : Fin cfg2.N) (r : Fin 2000) (k : Fin 128) :
    iblk2 V c 1 t (ix2 r k) = nArr V c (ix2 (row t r) k) := by
  show V c main_v50 (((cfg2.win 1).blk t).view.emb (ix2 r k)) = V c main_v50 (ix2 (row t r) k)
  refine congrArg _ (funext fun a => Fin.ext ?_)
  obtain ⟨e00, e01, e10, e11, e20, e21, e30, e31, e40, e41, e50, e51⟩ := idx_facts t
  match a with
  | ⟨0, _⟩ => show win2_1.index t (0 : Fin 2) * 2000 + 1 * r.val = t.val * 2000 + r.val; omega
  | ⟨1, _⟩ => show win2_1.index t (1 : Fin 2) * 128 + 1 * k.val = k.val; omega

theorem read_ws (c : Dev nD) (t : Fin cfg2.N) (q : Fin 64) (k : Fin 128) :
    iblk2 V c 2 t (ix2 q k) = wsArr V c (ix2 q k) := by
  show V c main_arg9 (((cfg2.win 2).blk t).view.emb (ix2 q k)) = V c main_arg9 (ix2 q k)
  refine congrArg _ (funext fun a => Fin.ext ?_)
  obtain ⟨e00, e01, e10, e11, e20, e21, e30, e31, e40, e41, e50, e51⟩ := idx_facts t
  match a with
  | ⟨0, _⟩ => show win2_2.index t (0 : Fin 2) * 64 + 1 * q.val = q.val; omega
  | ⟨1, _⟩ => show win2_2.index t (1 : Fin 2) * 128 + 1 * k.val = k.val; omega

theorem read_wn (c : Dev nD) (t : Fin cfg2.N) (q : Fin 64) (k : Fin 128) :
    iblk2 V c 3 t (ix2 q k) = wnArr V c (ix2 q k) := by
  show V c main_arg10 (((cfg2.win 3).blk t).view.emb (ix2 q k)) = V c main_arg10 (ix2 q k)
  refine congrArg _ (funext fun a => Fin.ext ?_)
  obtain ⟨e00, e01, e10, e11, e20, e21, e30, e31, e40, e41, e50, e51⟩ := idx_facts t
  match a with
  | ⟨0, _⟩ => show win2_3.index t (0 : Fin 2) * 64 + 1 * q.val = q.val; omega
  | ⟨1, _⟩ => show win2_3.index t (1 : Fin 2) * 128 + 1 * k.val = k.val; omega

theorem read_b (c : Dev nD) (t : Fin cfg2.N) (q : Fin 64) :
    iblk2 V c 4 t (ix2 0 q) = bRow V c (ix2 0 q) := by
  show V c main_v51 (((cfg2.win 4).blk t).view.emb (ix2 0 q)) = V c main_v51 (ix2 0 q)
  refine congrArg _ (funext fun a => Fin.ext ?_)
  obtain ⟨e00, e01, e10, e11, e20, e21, e30, e31, e40, e41, e50, e51⟩ := idx_facts t
  match a with
  | ⟨0, _⟩ => show win2_4.index t (0 : Fin 2) * 1 + 1 * 0 = 0; omega
  | ⟨1, _⟩ => show win2_4.index t (1 : Fin 2) * 64 + 1 * q.val = q.val; omega

/-- What point `t` writes back is block `t` of `G`. -/
theorem flushed_eq (c : Dev nD) (t : Fin cfg2.N) :
    (dat2 V c).flushed 5 t = ((cfg2.win 5).blk t).view.read (Elt Ideal) (G V c) := by
  show (cfg2.win 5).cut (grid2.coords t) ((dat2 V c).after 5 t) = _
  rw [after2_5]
  unfold out2_5
  rw [View.canon_unit_zero hz]
  simp only [View.ld_unit_zero (S := S2000x128) hz, View.ld_unit_zero (S := S64x128) hz, View.ld_unit_zero (S := S1x64) hz]
  funext j
  obtain ⟨r, q, rfl⟩ : ∃ (r : Fin 2000) (q : Fin 64), j = ix2 r q := ⟨j 0, j 1, eq_ix2 j⟩
  show k2_pay1 (iblk2 V c 0 t) (iblk2 V c 1 t) (iblk2 V c 2 t) (iblk2 V c 3 t) (iblk2 V c 4 t) (ix2 r q)
    = G V c (((cfg2.win 5).blk t).view.emb (ix2 r q))
  rw [emb_out]
  refine (DenseBody.pay2_apply (iblk2 V c 0 t) (iblk2 V c 1 t) (iblk2 V c 2 t) (iblk2 V c 3 t) (iblk2 V c 4 t) r q).trans ?_
  unfold G
  rw [SageSpec.last_ix2]
  unfold SageSpec.lin
  simp only [read_h, read_n, read_ws, read_wn, read_b]
  rfl

/-- Membership in point `t`'s output block, coordinate by coordinate. -/
theorem mem_blk (t : Fin cfg2.N) (i : S100000x64.Idx) :
    i ∈ ((cfg2.win 5).blk t).view.set ↔ ∀ a : Fin 2, win2_5.index t a * S2000x64.size a ≤ (i a).val ∧ (i a).val < win2_5.index t a * S2000x64.size a + S2000x64.size a := by
  show i ∈ ((View.whole main_v52).slice (win2_5.rect t)).set ↔ _
  rw [View.set_slice_whole, Rect.mem_set_unit]
  exact Iff.rfl

/-- Every node lies in the block of the grid point `node / 2000`. -/
theorem cover (i : S100000x64.Idx) :
    ∃ t : Fin cfg2.N, (cfg2.win 5).flush t = true ∧ i ∈ ((cfg2.win 5).blk t).view.set := by
  have hi0 : (i 0).val < 100000 := (i 0).isLt
  have hi1 : (i 1).val < 64 := (i 1).isLt
  have hN : cfg2.N = 50 := N_2
  refine ⟨⟨(i 0).val / 2000, by omega⟩, flush2_5 _, ?_⟩
  obtain ⟨e00, e01, e10, e11, e20, e21, e30, e31, e40, e41, e50, e51⟩ := idx_facts ⟨(i 0).val / 2000, by omega⟩
  rw [mem_blk]
  intro a
  match a with
  | ⟨0, _⟩ =>
    show win2_5.index ⟨(i 0).val / 2000, _⟩ (0 : Fin 2) * 2000 ≤ (i 0).val ∧ (i 0).val < win2_5.index ⟨(i 0).val / 2000, _⟩ (0 : Fin 2) * 2000 + 2000
    rw [e50]; show (i 0).val / 2000 * 2000 ≤ (i 0).val ∧ (i 0).val < (i 0).val / 2000 * 2000 + 2000; omega
  | ⟨1, _⟩ =>
    show win2_5.index ⟨(i 0).val / 2000, _⟩ (1 : Fin 2) * 64 ≤ (i 1).val ∧ (i 1).val < win2_5.index ⟨(i 0).val / 2000, _⟩ (1 : Fin 2) * 64 + 64
    rw [e51]; omega

/-- The layer's output array after the region: the specification's last layer of the arrays the region was
    entered with. -/
theorem region_val (c : Dev nD) : (dat2 V c).arrAt 5 cfg2.N = G V c :=
  (dat2 V c).arrAt_eq_of_cover 5 (G V c) (fun t _ => flushed_eq V c t) (cover)

end Cert.KernelIdeal.Region2

end
-- ==== Proof.KHostDefs.lean ====
/-
  The host operations between the dense regions, as values. Before each region the program gathers the rows
  `h[src]` of the current node features (a negative `src` counted from the end), adds them into the rows `dst`
  (`agg`), and scales row `n` of the sum by `1 / max (deg n) 1`, where `deg` counts the edges into each node. The
  reciprocal is computed once, before the first region, and reused by the two later stretches. Scaling by that
  reciprocal is dividing by `max (deg n) 1` on the extended reals (SageSpec.mul_one_div_max), so each stretch leaves
  the specification's neighbour mean of `agg` and `deg`.
-/
import proofs.«128506_j50714973831907_1_alg».proof.Proof.KernelIdealFrame
import proofs.«128506_j50714973831907_1_alg».proof.Proof.SageSpec
import Idealize.ShloMosaic.Lib.StableHlo.Run
import Idealize.ShloMosaic.Lib.Pipeline.Value
import Idealize.ShloMosaic.Lib.ValueIdx

set_option maxRecDepth 16384

noncomputable section

namespace Cert.KernelIdeal.HostVal

open Cert.KernelIdeal Cert.KernelIdeal.Gen Cert.KernelIdeal.GenP Idealize.ShloMosaic Idealize.ShloMosaic.TcCoe Idealize.SL.Sem
open Idealize.ShloMosaic.StableHlo Idealize.ShloMosaic.ValueIdx

/-- The source nodes as a column of row indices, a negative index counted from the end. -/
def srcCol (src : IVec S600000 32) : IVec S600000x1 32 :=
  broadcastInDim S600000x1 ![0] bcast_S600000_S600000x1_0
    (select (cmpi .slt src (broadcastInDim S600000 ![] bcast_S_S600000 (constantI S_ 32 0#32)))
      (addi src (broadcastInDim S600000 ![] bcast_S_S600000 (constantI S_ 32 100000#32))) src)

/-- The summed neighbour features: the gathered rows `h[src]` added into the rows `dst` of a zero array. -/
def aggOf (h : FVec Ideal S100000x128 .f32) (src dst : IVec S600000 32) : FVec Ideal S100000x128 .f32 :=
  Host.scatterAdd scatter_S100000x128_S600000x1_S600000x128_1_0_0_1
    (broadcastInDim S100000x128 ![] bcast_S_S100000x128 (constant (F := Ideal) S_ .f32 0x00000000#32))
    (broadcastInDim S600000x1 ![0] bcast_S600000_S600000x1_0 dst)
    (Host.gather gather_S100000x128_S600000x1_S600000x128_1_0_n_n_0_1_1128 h (srcCol src))

/-- The in-degrees: a one added into entry `dst` of a zero vector for every edge. -/
def degOf (dst : IVec S600000 32) : FVec Ideal S100000 .f32 :=
  Host.scatterAdd scatter_S100000_S600000x1_S600000_n_0_0_1
    (broadcastInDim S100000 ![] bcast_S_S100000 (constant (F := Ideal) S_ .f32 0x00000000#32))
    (broadcastInDim S600000x1 ![0] bcast_S600000_S600000x1_0 dst)
    (broadcastInDim S600000 ![] bcast_S_S600000 (constant (F := Ideal) S_ .f32 0x3F800000#32))

/-- The reciprocal of a degree vector clamped below at one, entry by entry. -/
def recip (D : FVec Ideal S100000 .f32) : FVec Ideal S100000 .f32 :=
  Host.divf (broadcastInDim S100000 ![] bcast_S_S100000 (constant (F := Ideal) S_ .f32 0x3F800000#32))
    (maximumf D (broadcastInDim S100000 ![] bcast_S_S100000 (constant (F := Ideal) S_ .f32 0x3F800000#32)))

/-- The reciprocal of the clamped in-degree. -/
def invOf (dst : IVec S600000 32) : FVec Ideal S100000 .f32 := recip (degOf dst)

/-- The scaled sum: row `n` of `agg` times entry `n` of `inv`. -/
def scaled (agg : FVec Ideal S100000x128 .f32) (inv : FVec Ideal S100000 .f32) : FVec Ideal S100000x128 .f32 :=
  mulf agg (broadcastInDim S100000x128 ![0, 1] bcast_S100000x1_S100000x128_0_1 (broadcastInDim S100000x1 ![0] bcast_S100000_S100000x1_0 inv))

/-- The vector of ones, read anywhere, is the real number 1. -/
theorem ones_apply (p : Fin 100000) :
    broadcastInDim S100000 ![] bcast_S_S100000 (constant (F := Ideal) S_ .f32 0x3F800000#32) (ix1 p) = 1 := by
  rw [broadcastInDim_apply _ bcast_S_S100000 _ (ix1 p) ix0 (fun a => a.elim0), constant_apply, SageSpec.one_f32]

/-- Entry `p` of the reciprocal is `1 / max (D p) 1`. -/
theorem recip_apply (D : FVec Ideal S100000 .f32) (p : Fin 100000) :
    recip D (ix1 p) = Ideal.div 1 (max (D (ix1 p)) 1) := by
  unfold recip
  show Ideal.div (broadcastInDim S100000 ![] bcast_S_S100000 (constant (F := Ideal) S_ .f32 0x3F800000#32) (ix1 p))
      (max (D (ix1 p)) (broadcastInDim S100000 ![] bcast_S_S100000 (constant (F := Ideal) S_ .f32 0x3F800000#32) (ix1 p))) = _
  rw [ones_apply]

/-- A vector broadcast along the features of a node array, read at node `p`, is the vector's entry `p`. -/
theorem rows_apply (v : FVec Ideal S100000 .f32) (p : Fin 100000) (q : Fin 128) :
    broadcastInDim S100000x128 ![0, 1] bcast_S100000x1_S100000x128_0_1
      (broadcastInDim S100000x1 ![0] bcast_S100000_S100000x1_0 v) (ix2 p q) = v (ix1 p) := by
  rw [broadcastInDim_apply _ bcast_S100000x1_S100000x128_0_1 _ (ix2 p q) (ix2 p 0) (fun a => match a with
    | ⟨0, _⟩ => by show p.val = if (100000 : Nat) = 1 then 0 else p.val; rw [if_neg (by decide)]
    | ⟨1, _⟩ => by show 0 = if (1 : Nat) = 1 then 0 else q.val; rw [if_pos rfl])]
  exact broadcastInDim_apply _ bcast_S100000_S100000x1_0 _ (ix2 p 0) (ix1 p) (fun a => match a with
    | ⟨0, _⟩ => by show p.val = if (100000 : Nat) = 1 then 0 else p.val; rw [if_neg (by decide)])

/-- Scaling row `p` by `1 / max (D p) 1` is dividing it by `max (D p) 1`: the neighbour mean of `agg` over the degrees `D`. -/
theorem scaled_recip (agg : FVec Ideal S100000x128 .f32) (D : FVec Ideal S100000 .f32) :
    scaled agg (recip D) = SageSpec.mean agg D := by
  funext i
  obtain ⟨p, q, rfl⟩ : ∃ (p : Fin 100000) (q : Fin 128), i = ix2 p q := ⟨i 0, i 1, eq_ix2 i⟩
  unfold scaled
  rw [mulf_apply, rows_apply, recip_apply]
  exact SageSpec.mul_one_div_max _ _

/-- The same for the in-degrees of `dst`. -/
theorem scaled_inv (agg : FVec Ideal S100000x128 .f32) (dst : IVec S600000 32) :
    scaled agg (invOf dst) = SageSpec.mean agg (degOf dst) := scaled_recip agg (degOf dst)

end Cert.KernelIdeal.HostVal

end
-- ==== Proof.KHost0.lean ====
/-
  The host operations before the first dense region, from any contents `Wv` of the buffers: they leave the scaled
  neighbour sum of the input features, the reciprocal clamped in-degrees (kept for the later stretches), and the first
  bias as a row; they write no argument.
-/
import proofs.«128506_j50714973831907_1_alg».proof.Proof.KHostDefs

set_option maxRecDepth 16384

noncomputable section

namespace Cert.KernelIdeal.HostVal

open Cert.KernelIdeal Cert.KernelIdeal.Gen Cert.KernelIdeal.GenP Idealize.ShloMosaic Idealize.ShloMosaic.TcCoe Idealize.SL.Sem
open Idealize.ShloMosaic.StableHlo Idealize.ShloMosaic.ValueIdx

variable (Wv : Valuation τ sig (Elt Ideal))

/-- A buffer no operation of the stretch writes holds afterwards what it held before. -/
local macro "untouched" : tactic => `(tactic| (
  refine StableHlo.after_of_forall_not_mem _ _ (List.forall_iff_forall_mem.mp ?_)
  simp only [hostOps0, hostOps1, hostOps2, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

set_option maxHeartbeats 8000000 in
/-- The first region's second operand: the neighbour sum of the input features, scaled. -/
theorem s0_v20 :
    StableHlo.after hostOps0 Wv (Proc.devRef .tc main_v20)
      = scaled (aggOf (Wv (Proc.devRef .tc main_arg0)) (Wv (Proc.devRef .tc main_arg1)) (Wv (Proc.devRef .tc main_arg2)))
          (invOf (Wv (Proc.devRef .tc main_arg2))) := by
  after_results_simp
  rfl

set_option maxHeartbeats 8000000 in
/-- The reciprocal clamped in-degrees. -/
theorem s0_v7 :
    StableHlo.after hostOps0 Wv (Proc.devRef .tc main_v7) = invOf (Wv (Proc.devRef .tc main_arg2)) := by
  after_results_simp
  rfl

set_option maxHeartbeats 8000000 in
/-- The first bias, reshaped to one row. -/
theorem s0_v21 :
    StableHlo.after hostOps0 Wv (Proc.devRef .tc main_v21)
      = shapeCast S1x128 (Wv (Proc.devRef .tc main_arg5)) shapeCasts_S128_S1x128 := by
  after_results_simp
  rfl

theorem s0_keep_main_arg0 : StableHlo.after hostOps0 Wv (Proc.devRef .tc main_arg0) = Wv (Proc.devRef .tc main_arg0) := by untouched
theorem s0_keep_main_arg1 : StableHlo.after hostOps0 Wv (Proc.devRef .tc main_arg1) = Wv (Proc.devRef .tc main_arg1) := by untouched
theorem s0_keep_main_arg2 : StableHlo.after hostOps0 Wv (Proc.devRef .tc main_arg2) = Wv (Proc.devRef .tc main_arg2) := by untouched
theorem s0_keep_main_arg3 : StableHlo.after hostOps0 Wv (Proc.devRef .tc main_arg3) = Wv (Proc.devRef .tc main_arg3) := by untouched
theorem s0_keep_main_arg4 : StableHlo.after hostOps0 Wv (Proc.devRef .tc main_arg4) = Wv (Proc.devRef .tc main_arg4) := by untouched
theorem s0_keep_main_arg6 : StableHlo.after hostOps0 Wv (Proc.devRef .tc main_arg6) = Wv (Proc.devRef .tc main_arg6) := by untouched
theorem s0_keep_main_arg7 : StableHlo.after hostOps0 Wv (Proc.devRef .tc main_arg7) = Wv (Proc.devRef .tc main_arg7) := by untouched
theorem s0_keep_main_arg8 : StableHlo.after hostOps0 Wv (Proc.devRef .tc main_arg8) = Wv (Proc.devRef .tc main_arg8) := by untouched
theorem s0_keep_main_arg9 : StableHlo.after hostOps0 Wv (Proc.devRef .tc main_arg9) = Wv (Proc.devRef .tc main_arg9) := by untouched
theorem s0_keep_main_arg10 : StableHlo.after hostOps0 Wv (Proc.devRef .tc main_arg10) = Wv (Proc.devRef .tc main_arg10) := by untouched
theorem s0_keep_main_arg11 : StableHlo.after hostOps0 Wv (Proc.devRef .tc main_arg11) = Wv (Proc.devRef .tc main_arg11) := by untouched
end Cert.KernelIdeal.HostVal

end
-- ==== Proof.KHost1.lean ====
/-
  The host operations between the first and the second dense region, from any contents `Wv`: they leave the neighbour
  sum of the first layer's output scaled by the kept reciprocals, and the second bias as a row; they write nothing else
  that is read later.
-/
import proofs.«128506_j50714973831907_1_alg».proof.Proof.KHostDefs

set_option maxRecDepth 16384

noncomputable section

namespace Cert.KernelIdeal.HostVal

open Cert.KernelIdeal Cert.KernelIdeal.Gen Cert.KernelIdeal.GenP Idealize.ShloMosaic Idealize.ShloMosaic.TcCoe Idealize.SL.Sem
open Idealize.ShloMosaic.StableHlo Idealize.ShloMosaic.ValueIdx

variable (Wv : Valuation τ sig (Elt Ideal))

/-- A buffer no operation of the stretch writes holds afterwards what it held before. -/
local macro "untouched" : tactic => `(tactic| (
  refine StableHlo.after_of_forall_not_mem _ _ (List.forall_iff_forall_mem.mp ?_)
  simp only [hostOps0, hostOps1, hostOps2, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

set_option maxHeartbeats 8000000 in
/-- The second region's second operand. -/
theorem s1_v35 :
    StableHlo.after hostOps1 Wv (Proc.devRef .tc main_v35)
      = scaled (aggOf (Wv (Proc.devRef .tc main_v22)) (Wv (Proc.devRef .tc main_arg1)) (Wv (Proc.devRef .tc main_arg2)))
          (Wv (Proc.devRef .tc main_v7)) := by
  after_results_simp
  rfl

set_option maxHeartbeats 8000000 in
/-- The second bias, reshaped to one row. -/
theorem s1_v36 :
    StableHlo.after hostOps1 Wv (Proc.devRef .tc main_v36)
      = shapeCast S1x128 (Wv (Proc.devRef .tc main_arg8)) shapeCasts_S128_S1x128 := by
  after_results_simp
  rfl

theorem s1_keep_main_v22 : StableHlo.after hostOps1 Wv (Proc.devRef .tc main_v22) = Wv (Proc.devRef .tc main_v22) := by untouched
theorem s1_keep_main_arg1 : StableHlo.after hostOps1 Wv (Proc.devRef .tc main_arg1) = Wv (Proc.devRef .tc main_arg1) := by untouched
theorem s1_keep_main_arg2 : StableHlo.after hostOps1 Wv (Proc.devRef .tc main_arg2) = Wv (Proc.devRef .tc main_arg2) := by untouched
theorem s1_keep_main_v7 : StableHlo.after hostOps1 Wv (Proc.devRef .tc main_v7) = Wv (Proc.devRef .tc main_v7) := by untouched
theorem s1_keep_main_arg6 : StableHlo.after hostOps1 Wv (Proc.devRef .tc main_arg6) = Wv (Proc.devRef .tc main_arg6) := by untouched
theorem s1_keep_main_arg7 : StableHlo.after hostOps1 Wv (Proc.devRef .tc main_arg7) = Wv (Proc.devRef .tc main_arg7) := by untouched
theorem s1_keep_main_arg9 : StableHlo.after hostOps1 Wv (Proc.devRef .tc main_arg9) = Wv (Proc.devRef .tc main_arg9) := by untouched
theorem s1_keep_main_arg10 : StableHlo.after hostOps1 Wv (Proc.devRef .tc main_arg10) = Wv (Proc.devRef .tc main_arg10) := by untouched
theorem s1_keep_main_arg11 : StableHlo.after hostOps1 Wv (Proc.devRef .tc main_arg11) = Wv (Proc.devRef .tc main_arg11) := by untouched
end Cert.KernelIdeal.HostVal

end
-- ==== Proof.KHost2.lean ====
/-
  The host operations between the second and the third dense region, from any contents `Wv`: they leave the neighbour
  sum of the second layer's output scaled by the kept reciprocals, and the third bias as a row.
-/
import proofs.«128506_j50714973831907_1_alg».proof.Proof.KHostDefs

set_option maxRecDepth 16384

noncomputable section

namespace Cert.KernelIdeal.HostVal

open Cert.KernelIdeal Cert.KernelIdeal.Gen Cert.KernelIdeal.GenP Idealize.ShloMosaic Idealize.ShloMosaic.TcCoe Idealize.SL.Sem
open Idealize.ShloMosaic.StableHlo Idealize.ShloMosaic.ValueIdx

variable (Wv : Valuation τ sig (Elt Ideal))

/-- A buffer no operation of the stretch writes holds afterwards what it held before. -/
local macro "untouched" : tactic => `(tactic| (
  refine StableHlo.after_of_forall_not_mem _ _ (List.forall_iff_forall_mem.mp ?_)
  simp only [hostOps0, hostOps1, hostOps2, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

set_option maxHeartbeats 8000000 in
/-- The third region's second operand. -/
theorem s2_v50 :
    StableHlo.after hostOps2 Wv (Proc.devRef .tc main_v50)
      = scaled (aggOf (Wv (Proc.devRef .tc main_v37)) (Wv (Proc.devRef .tc main_arg1)) (Wv (Proc.devRef .tc main_arg2)))
          (Wv (Proc.devRef .tc main_v7)) := by
  after_results_simp
  rfl

set_option maxHeartbeats 8000000 in
/-- The third bias, reshaped to one row. -/
theorem s2_v51 :
    StableHlo.after hostOps2 Wv (Proc.devRef .tc main_v51)
      = shapeCast S1x64 (Wv (Proc.devRef .tc main_arg11)) shapeCasts_S64_S1x64 := by
  after_results_simp
  rfl

theorem s2_keep_main_v37 : StableHlo.after hostOps2 Wv (Proc.devRef .tc main_v37) = Wv (Proc.devRef .tc main_v37) := by untouched
theorem s2_keep_main_arg9 : StableHlo.after hostOps2 Wv (Proc.devRef .tc main_arg9) = Wv (Proc.devRef .tc main_arg9) := by untouched
theorem s2_keep_main_arg10 : StableHlo.after hostOps2 Wv (Proc.devRef .tc main_arg10) = Wv (Proc.devRef .tc main_arg10) := by untouched
end Cert.KernelIdeal.HostVal

end
-- ==== Proof.KValue.lean ====
/-
  The kernel program's result as a function of the launch memory. Reading the buffer contents at the six segment
  boundaries back to the launch: each host stretch leaves the neighbour mean of the current features (the scaled sum of
  KHostDefs, with the reciprocals computed once in the first stretch and untouched afterwards), each dense region leaves
  the specification's layer of what it was entered with (KRegion0/1/2), and no segment writes an argument. So the result
  buffer ends at

      last h2 (mean (agg h2) deg) W9 W10 b11,   h2 = hidden h1 (mean (agg h1) deg) W6 W7 b8,
      h1 = hidden x (mean (agg x) deg) W3 W4 b5,

  with `agg h = aggOf h src dst` and `deg = degOf dst`.
-/
import proofs.«128506_j50714973831907_1_alg».proof.Proof.KernelIdealFrame
import proofs.«128506_j50714973831907_1_alg».proof.Proof.KRegion0
import proofs.«128506_j50714973831907_1_alg».proof.Proof.KRegion1
import proofs.«128506_j50714973831907_1_alg».proof.Proof.KRegion2
import proofs.«128506_j50714973831907_1_alg».proof.Proof.KHost0
import proofs.«128506_j50714973831907_1_alg».proof.Proof.KHost1
import proofs.«128506_j50714973831907_1_alg».proof.Proof.KHost2

set_option maxRecDepth 16384

noncomputable section

namespace Cert.KernelIdeal.NetValue

open Cert.KernelIdeal Cert.KernelIdeal.Gen Cert.KernelIdeal.GenP Cert.KernelIdeal.HostVal
open Idealize.ShloMosaic Idealize.ShloMosaic.TcCoe Idealize.SL.Sem Idealize.ShloMosaic.ValueIdx

variable (m : (ℓ : Loc nD τ sig) → Buf (Elt Ideal) ℓ) (ρ : Dev nD → PrngReg)

/-! ## The arguments, at their literal types -/

abbrev x (c : Dev nD) : FVec Ideal S100000x128 .f32 := m ((c.tc : Thread nD τ).loc main_arg0)
abbrev src (c : Dev nD) : IVec S600000 32 := m ((c.tc : Thread nD τ).loc main_arg1)
abbrev dst (c : Dev nD) : IVec S600000 32 := m ((c.tc : Thread nD τ).loc main_arg2)
abbrev ws1 (c : Dev nD) : FVec Ideal S128x128 .f32 := m ((c.tc : Thread nD τ).loc main_arg3)
abbrev wn1 (c : Dev nD) : FVec Ideal S128x128 .f32 := m ((c.tc : Thread nD τ).loc main_arg4)
abbrev b1 (c : Dev nD) : FVec Ideal S128 .f32 := m ((c.tc : Thread nD τ).loc main_arg5)
abbrev ws2 (c : Dev nD) : FVec Ideal S128x128 .f32 := m ((c.tc : Thread nD τ).loc main_arg6)
abbrev wn2 (c : Dev nD) : FVec Ideal S128x128 .f32 := m ((c.tc : Thread nD τ).loc main_arg7)
abbrev b2 (c : Dev nD) : FVec Ideal S128 .f32 := m ((c.tc : Thread nD τ).loc main_arg8)
abbrev ws3 (c : Dev nD) : FVec Ideal S64x128 .f32 := m ((c.tc : Thread nD τ).loc main_arg9)
abbrev wn3 (c : Dev nD) : FVec Ideal S64x128 .f32 := m ((c.tc : Thread nD τ).loc main_arg10)
abbrev b3 (c : Dev nD) : FVec Ideal S64 .f32 := m ((c.tc : Thread nD τ).loc main_arg11)

/-- The first hidden layer's output. -/
def h1 (c : Dev nD) : FVec Ideal S100000x128 .f32 :=
  SageSpec.hidden (x m c) (SageSpec.mean (aggOf (x m c) (src m c) (dst m c)) (degOf (dst m c))) (ws1 m c) (wn1 m c) (b1 m c)
/-- The second hidden layer's output. -/
def h2 (c : Dev nD) : FVec Ideal S100000x128 .f32 :=
  SageSpec.hidden (h1 m c) (SageSpec.mean (aggOf (h1 m c) (src m c) (dst m c)) (degOf (dst m c))) (ws2 m c) (wn2 m c) (b2 m c)
/-- The network's output. -/
def out (c : Dev nD) : FVec Ideal S100000x64 .f32 :=
  SageSpec.last (h2 m c) (SageSpec.mean (aggOf (h2 m c) (src m c) (dst m c)) (degOf (dst m c))) (ws3 m c) (wn3 m c) (b3 m c)

/-! ## A bias reshaped to one row, read back as a vector -/

theorem row128 (b : FVec Ideal S128 .f32) :
    (fun j : S128.Idx => shapeCast S1x128 b shapeCasts_S128_S1x128 (ix2 0 ⟨(j 0).val, (j 0).isLt⟩)) = b := by
  funext j
  refine (shapeCast_addUnit_apply ![128] b shapeCasts_S128_S1x128 _).trans (congrArg b ?_)
  funext a; match a with | ⟨0, _⟩ => rfl

theorem row64 (b : FVec Ideal S64 .f32) :
    (fun j : S64.Idx => shapeCast S1x64 b shapeCasts_S64_S1x64 (ix2 0 ⟨(j 0).val, (j 0).isLt⟩)) = b := by
  funext j
  refine (shapeCast_addUnit_apply ![64] b shapeCasts_S64_S1x64 _).trans (congrArg b ?_)
  funext a; match a with | ⟨0, _⟩ => rfl

/-! ## Region 0: entered after the first stretch -/

theorem e0_h (c : Dev nD) : Region0.hArr (V1 m ρ) c = x m c := s0_keep_main_arg0 (W0 m ρ c)
theorem e0_n (c : Dev nD) : Region0.nArr (V1 m ρ) c
    = SageSpec.mean (aggOf (x m c) (src m c) (dst m c)) (degOf (dst m c)) :=
  (s0_v20 (W0 m ρ c)).trans (scaled_inv _ _)
theorem e0_ws (c : Dev nD) : Region0.wsArr (V1 m ρ) c = ws1 m c := s0_keep_main_arg3 (W0 m ρ c)
theorem e0_wn (c : Dev nD) : Region0.wnArr (V1 m ρ) c = wn1 m c := s0_keep_main_arg4 (W0 m ρ c)
theorem e0_b (c : Dev nD) : Region0.bVec (V1 m ρ) c = b1 m c := by
  unfold Region0.bVec
  show (fun j : S128.Idx => W1 m ρ c (Proc.devRef .tc main_v21) (ix2 0 ⟨(j 0).val, (j 0).isLt⟩)) = _
  rw [show W1 m ρ c (Proc.devRef .tc main_v21) = shapeCast S1x128 (b1 m c) shapeCasts_S128_S1x128 from s0_v21 (W0 m ρ c)]
  exact row128 _

/-- After region 0 its output array holds the first hidden layer. -/
theorem out0 (c : Dev nD) : W2 m ρ c (Proc.devRef .tc main_v22) = h1 m c := by
  refine (W2_arr m ρ c 5).trans ?_
  rw [Region0.region_val]
  unfold Region0.G h1
  rw [e0_h, e0_n, e0_ws, e0_wn, e0_b]

/-! ## What region 0 leaves in the buffers the later segments read -/

theorem W2_src (c : Dev nD) : W2 m ρ c (Proc.devRef .tc main_arg1) = src m c :=
  (W2_of_ne m ρ c main_arg1 (by decide)).trans (s0_keep_main_arg1 (W0 m ρ c))
theorem W2_dst (c : Dev nD) : W2 m ρ c (Proc.devRef .tc main_arg2) = dst m c :=
  (W2_of_ne m ρ c main_arg2 (by decide)).trans (s0_keep_main_arg2 (W0 m ρ c))
theorem W2_inv (c : Dev nD) : W2 m ρ c (Proc.devRef .tc main_v7) = invOf (dst m c) :=
  (W2_of_ne m ρ c main_v7 (by decide)).trans (s0_v7 (W0 m ρ c))
theorem W2_ws2 (c : Dev nD) : W2 m ρ c (Proc.devRef .tc main_arg6) = ws2 m c :=
  (W2_of_ne m ρ c main_arg6 (by decide)).trans (s0_keep_main_arg6 (W0 m ρ c))
theorem W2_wn2 (c : Dev nD) : W2 m ρ c (Proc.devRef .tc main_arg7) = wn2 m c :=
  (W2_of_ne m ρ c main_arg7 (by decide)).trans (s0_keep_main_arg7 (W0 m ρ c))
theorem W2_b2 (c : Dev nD) : W2 m ρ c (Proc.devRef .tc main_arg8) = b2 m c :=
  (W2_of_ne m ρ c main_arg8 (by decide)).trans (s0_keep_main_arg8 (W0 m ρ c))
theorem W2_ws3 (c : Dev nD) : W2 m ρ c (Proc.devRef .tc main_arg9) = ws3 m c :=
  (W2_of_ne m ρ c main_arg9 (by decide)).trans (s0_keep_main_arg9 (W0 m ρ c))
theorem W2_wn3 (c : Dev nD) : W2 m ρ c (Proc.devRef .tc main_arg10) = wn3 m c :=
  (W2_of_ne m ρ c main_arg10 (by decide)).trans (s0_keep_main_arg10 (W0 m ρ c))
theorem W2_b3 (c : Dev nD) : W2 m ρ c (Proc.devRef .tc main_arg11) = b3 m c :=
  (W2_of_ne m ρ c main_arg11 (by decide)).trans (s0_keep_main_arg11 (W0 m ρ c))

/-! ## Region 1: entered after the second stretch -/

theorem e1_h (c : Dev nD) : Region1.hArr (V3 m ρ) c = h1 m c :=
  (s1_keep_main_v22 (W2 m ρ c)).trans (out0 m ρ c)
theorem e1_n (c : Dev nD) : Region1.nArr (V3 m ρ) c
    = SageSpec.mean (aggOf (h1 m c) (src m c) (dst m c)) (degOf (dst m c)) := by
  refine (s1_v35 (W2 m ρ c)).trans ?_
  rw [out0, W2_src, W2_dst, W2_inv]
  exact scaled_inv _ _
theorem e1_ws (c : Dev nD) : Region1.wsArr (V3 m ρ) c = ws2 m c :=
  (s1_keep_main_arg6 (W2 m ρ c)).trans (W2_ws2 m ρ c)
theorem e1_wn (c : Dev nD) : Region1.wnArr (V3 m ρ) c = wn2 m c :=
  (s1_keep_main_arg7 (W2 m ρ c)).trans (W2_wn2 m ρ c)
theorem e1_b (c : Dev nD) : Region1.bVec (V3 m ρ) c = b2 m c := by
  unfold Region1.bVec
  show (fun j : S128.Idx => W3 m ρ c (Proc.devRef .tc main_v36) (ix2 0 ⟨(j 0).val, (j 0).isLt⟩)) = _
  rw [show W3 m ρ c (Proc.devRef .tc main_v36) = shapeCast S1x128 (b2 m c) shapeCasts_S128_S1x128 from
    (s1_v36 (W2 m ρ c)).trans (by rw [W2_b2])]
  exact row128 _

/-- After region 1 its output array holds the second hidden layer. -/
theorem out1 (c : Dev nD) : W4 m ρ c (Proc.devRef .tc main_v37) = h2 m c := by
  refine (W4_arr m ρ c 5).trans ?_
  rw [Region1.region_val]
  unfold Region1.G h2
  rw [e1_h, e1_n, e1_ws, e1_wn, e1_b]

/-! ## What region 1 leaves in the buffers the last two segments read -/

theorem W4_src (c : Dev nD) : W4 m ρ c (Proc.devRef .tc main_arg1) = src m c :=
  (W4_of_ne m ρ c main_arg1 (by decide)).trans ((s1_keep_main_arg1 (W2 m ρ c)).trans (W2_src m ρ c))
theorem W4_dst (c : Dev nD) : W4 m ρ c (Proc.devRef .tc main_arg2) = dst m c :=
  (W4_of_ne m ρ c main_arg2 (by decide)).trans ((s1_keep_main_arg2 (W2 m ρ c)).trans (W2_dst m ρ c))
theorem W4_inv (c : Dev nD) : W4 m ρ c (Proc.devRef .tc main_v7) = invOf (dst m c) :=
  (W4_of_ne m ρ c main_v7 (by decide)).trans ((s1_keep_main_v7 (W2 m ρ c)).trans (W2_inv m ρ c))
theorem W4_ws3 (c : Dev nD) : W4 m ρ c (Proc.devRef .tc main_arg9) = ws3 m c :=
  (W4_of_ne m ρ c main_arg9 (by decide)).trans ((s1_keep_main_arg9 (W2 m ρ c)).trans (W2_ws3 m ρ c))
theorem W4_wn3 (c : Dev nD) : W4 m ρ c (Proc.devRef .tc main_arg10) = wn3 m c :=
  (W4_of_ne m ρ c main_arg10 (by decide)).trans ((s1_keep_main_arg10 (W2 m ρ c)).trans (W2_wn3 m ρ c))
theorem W4_b3 (c : Dev nD) : W4 m ρ c (Proc.devRef .tc main_arg11) = b3 m c :=
  (W4_of_ne m ρ c main_arg11 (by decide)).trans ((s1_keep_main_arg11 (W2 m ρ c)).trans (W2_b3 m ρ c))

/-! ## Region 2: entered after the third stretch -/

theorem e2_h (c : Dev nD) : Region2.hArr (V5 m ρ) c = h2 m c :=
  (s2_keep_main_v37 (W4 m ρ c)).trans (out1 m ρ c)
theorem e2_n (c : Dev nD) : Region2.nArr (V5 m ρ) c
    = SageSpec.mean (aggOf (h2 m c) (src m c) (dst m c)) (degOf (dst m c)) := by
  refine (s2_v50 (W4 m ρ c)).trans ?_
  rw [out1, W4_src, W4_dst, W4_inv]
  exact scaled_inv _ _
theorem e2_ws (c : Dev nD) : Region2.wsArr (V5 m ρ) c = ws3 m c :=
  (s2_keep_main_arg9 (W4 m ρ c)).trans (W4_ws3 m ρ c)
theorem e2_wn (c : Dev nD) : Region2.wnArr (V5 m ρ) c = wn3 m c :=
  (s2_keep_main_arg10 (W4 m ρ c)).trans (W4_wn3 m ρ c)
theorem e2_b (c : Dev nD) : Region2.bVec (V5 m ρ) c = b3 m c := by
  unfold Region2.bVec
  show (fun j : S64.Idx => W5 m ρ c (Proc.devRef .tc main_v51) (ix2 0 ⟨(j 0).val, (j 0).isLt⟩)) = _
  rw [show W5 m ρ c (Proc.devRef .tc main_v51) = shapeCast S1x64 (b3 m c) shapeCasts_S64_S1x64 from
    (s2_v51 (W4 m ρ c)).trans (by rw [W4_b3])]
  exact row64 _

/-- THE RESULT: after the last region the result buffer holds the network's output. -/
theorem result (c : Dev nD) : W6 m ρ c (Proc.devRef .tc main_v52) = out m c := by
  refine (W6_arr m ρ c 5).trans ?_
  rw [Region2.region_val]
  unfold Region2.G out
  rw [e2_h, e2_n, e2_ws, e2_wn, e2_b]

end Cert.KernelIdeal.NetValue

end
-- ==== Proof.RefLayers.lean ====
/-
  The reference, layer by layer, against the shared specification (SageSpec): each of its three layers is
  `h · Wsᵀ + mean · Wnᵀ + b` with `mean = agg / max deg 1` row by row, the first two clamped below at zero.
  Its products are sums over the 128 input features, its transposes swap the two coordinates, its bias is broadcast
  along the nodes, and its quotient is read entry by entry with the clamped degree broadcast along the features.
-/
import proofs.«128506_j50714973831907_1_alg».proof.Proof.Gen.ReferenceIdeal.Read
import proofs.«128506_j50714973831907_1_alg».proof.Proof.SageSpec

noncomputable section

namespace Cert.ReferenceIdeal.Layers

open Cert.ReferenceIdeal Cert.ReferenceIdeal.Gen Cert.ReferenceIdeal.Read Idealize.ShloMosaic Idealize.ShloMosaic.TcCoe
open Idealize.ShloMosaic.ValueIdx

/-! ### Layer 1: the stages read at a node `p`, an output feature `q` and an input feature `k` -/

/-- The left operand of the first product is read at `(p, k)`. -/
private theorem l1_lidx (p : Fin 100000) (q k : Fin 128) : lidx_main_v20 (ix2 p q) k = ix2 p k :=
  funext fun a => Fin.ext (by match a with | ⟨0, _⟩ => rfl | ⟨1, _⟩ => rfl)

/-- The left operand of the second product is read at `(p, k)`. -/
private theorem l1_lidx' (p : Fin 100000) (q k : Fin 128) : lidx_main_v22 (ix2 p q) k = ix2 p k :=
  funext fun a => Fin.ext (by match a with | ⟨0, _⟩ => rfl | ⟨1, _⟩ => rfl)

/-- The transposed self weight at `(k, q)` is the weight at `(q, k)`. -/
private theorem l1_ws (x3 : (⟨S128x128, .f32⟩ : BufTy).Contents (Elt Ideal)) (p : Fin 100000) (q k : Fin 128) :
    val_main_v19 (F := Ideal) x3 (ridx_main_v20 (ix2 p q) k) = x3 (ix2 q k) := by
  rw [val_main_v19_apply]
  exact congrArg x3 (funext fun a => Fin.ext (by match a with | ⟨0, _⟩ => rfl | ⟨1, _⟩ => rfl))

/-- The transposed neighbour weight at `(k, q)` is the weight at `(q, k)`. -/
private theorem l1_wn (x4 : (⟨S128x128, .f32⟩ : BufTy).Contents (Elt Ideal)) (p : Fin 100000) (q k : Fin 128) :
    val_main_v21 (F := Ideal) x4 (ridx_main_v22 (ix2 p q) k) = x4 (ix2 q k) := by
  rw [val_main_v21_apply]
  exact congrArg x4 (funext fun a => Fin.ext (by match a with | ⟨0, _⟩ => rfl | ⟨1, _⟩ => rfl))

/-- The broadcast bias at `(p, q)` is the bias at `q`. -/
private theorem l1_bias (x5 : (⟨S128, .f32⟩ : BufTy).Contents (Elt Ideal)) (p : Fin 100000) (q : Fin 128) :
    val_main_v25 (F := Ideal) x5 (ix2 p q) = x5 (ix1 q) := by
  rw [val_main_v25_apply, val_main_v24_apply]
  exact congrArg x5 (funext fun a => Fin.ext (by match a with | ⟨0, _⟩ => rfl))

/-- The clamp's lower bound is the real number 0 everywhere. -/
private theorem l1_zero (p : Fin 100000) (q : Fin 128) : val_main_call0_v0 (F := Ideal) (ix2 p q) = 0 := by
  rw [val_main_call0_v0_apply, val_main_call0_cst_apply, Ideal.ofBits_def, Ideal.ofBits_zero_f32]

/-- The quotient stage is the neighbour mean: the degree is clamped below at 1 and broadcast along the features. -/
private theorem l1_mean (x0 : (⟨S100000x128, .f32⟩ : BufTy).Contents (Elt Ideal)) (x1 x2 : (⟨S600000, .i32⟩ : BufTy).Contents (Elt Ideal))
    (p : Fin 100000) (k : Fin 128) :
    val_main_v18 (F := Ideal) x0 x1 x2 (ix2 p k)
      = SageSpec.mean (val_main_v9 (F := Ideal) x0 x1 x2) (val_main_v13 (F := Ideal) x2) (ix2 p k) := by
  rw [val_main_v18_apply, val_main_v17_apply, val_main_v16_apply, val_main_v15_apply, val_main_v14_apply,
    val_main_cst_3_apply, Ideal.hostDivf_def, Ideal.maximumf_def, Ideal.ofBits_def, SageSpec.one_f32]
  unfold SageSpec.mean
  exact congrArg (fun j => Ideal.div (val_main_v9 (F := Ideal) x0 x1 x2 (ix2 p k)) (max (val_main_v13 (F := Ideal) x2 j) 1))
    (funext fun a => Fin.ext (by match a with | ⟨0, _⟩ => rfl))

/-- Layer 1: the first hidden layer is the specification's, over the input features, the summed neighbour features
    `val_main_v9` and the in-degrees `val_main_v13`. -/
theorem layer1 (x0 : (⟨S100000x128, .f32⟩ : BufTy).Contents (Elt Ideal)) (x1 x2 : (⟨S600000, .i32⟩ : BufTy).Contents (Elt Ideal)) (x3 x4 : (⟨S128x128, .f32⟩ : BufTy).Contents (Elt Ideal)) (x5 : (⟨S128, .f32⟩ : BufTy).Contents (Elt Ideal)) :
    val_main_v27 (F := Ideal) x0 x1 x2 x3 x4 x5
      = SageSpec.hidden x0 (SageSpec.mean (val_main_v9 (F := Ideal) x0 x1 x2) (val_main_v13 (F := Ideal) x2)) x3 x4 x5 := by
  funext i
  obtain ⟨p, q, rfl⟩ : ∃ (p : Fin 100000) (q : Fin 128), i = ix2 p q := ⟨i 0, i 1, eq_ix2 i⟩
  rw [SageSpec.hidden_ix2]
  unfold SageSpec.lin
  rw [val_main_v27_apply, val_main_v26_apply, val_main_v23_apply, val_main_v20_apply, val_main_v22_apply, l1_bias, l1_zero,
    Ideal.maximumf_def, Ideal.addf_def, Ideal.addf_def]
  have e1 : (∑ k : Fin 128, x0 (lidx_main_v20 (ix2 p q) k) * val_main_v19 (F := Ideal) x3 (ridx_main_v20 (ix2 p q) k))
      = ∑ k : Fin 128, x0 (ix2 p k) * x3 (ix2 q k) :=
    Finset.sum_congr rfl fun k _ => by rw [l1_lidx, l1_ws]
  have e2 : (∑ k : Fin 128, val_main_v18 (F := Ideal) x0 x1 x2 (lidx_main_v22 (ix2 p q) k) * val_main_v21 (F := Ideal) x4 (ridx_main_v22 (ix2 p q) k))
      = ∑ k : Fin 128, SageSpec.mean (val_main_v9 (F := Ideal) x0 x1 x2) (val_main_v13 (F := Ideal) x2) (ix2 p k) * x4 (ix2 q k) :=
    Finset.sum_congr rfl fun k _ => by rw [l1_lidx', l1_mean, l1_wn]
  rw [e1, e2]

/-! ### Layer 2: the same stages, over layer 1's output -/

/-- The left operand of the first product is read at `(p, k)`. -/
private theorem l2_lidx (p : Fin 100000) (q k : Fin 128) : lidx_main_v48 (ix2 p q) k = ix2 p k :=
  funext fun a => Fin.ext (by match a with | ⟨0, _⟩ => rfl | ⟨1, _⟩ => rfl)

/-- The left operand of the second product is read at `(p, k)`. -/
private theorem l2_lidx' (p : Fin 100000) (q k : Fin 128) : lidx_main_v50 (ix2 p q) k = ix2 p k :=
  funext fun a => Fin.ext (by match a with | ⟨0, _⟩ => rfl | ⟨1, _⟩ => rfl)

/-- The transposed self weight at `(k, q)` is the weight at `(q, k)`. -/
private theorem l2_ws (x6 : (⟨S128x128, .f32⟩ : BufTy).Contents (Elt Ideal)) (p : Fin 100000) (q k : Fin 128) :
    val_main_v47 (F := Ideal) x6 (ridx_main_v48 (ix2 p q) k) = x6 (ix2 q k) := by
  rw [val_main_v47_apply]
  exact congrArg x6 (funext fun a => Fin.ext (by match a with | ⟨0, _⟩ => rfl | ⟨1, _⟩ => rfl))

/-- The transposed neighbour weight at `(k, q)` is the weight at `(q, k)`. -/
private theorem l2_wn (x7 : (⟨S128x128, .f32⟩ : BufTy).Contents (Elt Ideal)) (p : Fin 100000) (q k : Fin 128) :
    val_main_v49 (F := Ideal) x7 (ridx_main_v50 (ix2 p q) k) = x7 (ix2 q k) := by
  rw [val_main_v49_apply]
  exact congrArg x7 (funext fun a => Fin.ext (by match a with | ⟨0, _⟩ => rfl | ⟨1, _⟩ => rfl))

/-- The broadcast bias at `(p, q)` is the bias at `q`. -/
private theorem l2_bias (x8 : (⟨S128, .f32⟩ : BufTy).Contents (Elt Ideal)) (p : Fin 100000) (q : Fin 128) :
    val_main_v53 (F := Ideal) x8 (ix2 p q) = x8 (ix1 q) := by
  rw [val_main_v53_apply, val_main_v52_apply]
  exact congrArg x8 (funext fun a => Fin.ext (by match a with | ⟨0, _⟩ => rfl))

/-- The clamp's lower bound is the real number 0 everywhere. -/
private theorem l2_zero (p : Fin 100000) (q : Fin 128) : val_main_call1_v0 (F := Ideal) (ix2 p q) = 0 := by
  rw [val_main_call1_v0_apply, val_main_call1_cst_apply, Ideal.ofBits_def, Ideal.ofBits_zero_f32]

/-- The quotient stage is the neighbour mean of layer 1's output. -/
private theorem l2_mean (x0 : (⟨S100000x128, .f32⟩ : BufTy).Contents (Elt Ideal)) (x1 x2 : (⟨S600000, .i32⟩ : BufTy).Contents (Elt Ideal))
    (x3 x4 : (⟨S128x128, .f32⟩ : BufTy).Contents (Elt Ideal)) (x5 : (⟨S128, .f32⟩ : BufTy).Contents (Elt Ideal)) (p : Fin 100000) (k : Fin 128) :
    val_main_v46 (F := Ideal) x0 x1 x2 x3 x4 x5 (ix2 p k)
      = SageSpec.mean (val_main_v37 (F := Ideal) x0 x1 x2 x3 x4 x5) (val_main_v41 (F := Ideal) x2) (ix2 p k) := by
  rw [val_main_v46_apply, val_main_v45_apply, val_main_v44_apply, val_main_v43_apply, val_main_v42_apply,
    val_main_cst_9_apply, Ideal.hostDivf_def, Ideal.maximumf_def, Ideal.ofBits_def, SageSpec.one_f32]
  unfold SageSpec.mean
  exact congrArg (fun j => Ideal.div (val_main_v37 (F := Ideal) x0 x1 x2 x3 x4 x5 (ix2 p k)) (max (val_main_v41 (F := Ideal) x2 j) 1))
    (funext fun a => Fin.ext (by match a with | ⟨0, _⟩ => rfl))

/-- Layer 2, over layer 1's output. -/
theorem layer2 (x0 : (⟨S100000x128, .f32⟩ : BufTy).Contents (Elt Ideal)) (x1 x2 : (⟨S600000, .i32⟩ : BufTy).Contents (Elt Ideal)) (x3 x4 : (⟨S128x128, .f32⟩ : BufTy).Contents (Elt Ideal)) (x5 : (⟨S128, .f32⟩ : BufTy).Contents (Elt Ideal)) (x6 x7 : (⟨S128x128, .f32⟩ : BufTy).Contents (Elt Ideal)) (x8 : (⟨S128, .f32⟩ : BufTy).Contents (Elt Ideal)) :
    val_main_v55 (F := Ideal) x0 x1 x2 x3 x4 x5 x6 x7 x8
      = SageSpec.hidden (val_main_v27 (F := Ideal) x0 x1 x2 x3 x4 x5)
          (SageSpec.mean (val_main_v37 (F := Ideal) x0 x1 x2 x3 x4 x5) (val_main_v41 (F := Ideal) x2)) x6 x7 x8 := by
  funext i
  obtain ⟨p, q, rfl⟩ : ∃ (p : Fin 100000) (q : Fin 128), i = ix2 p q := ⟨i 0, i 1, eq_ix2 i⟩
  rw [SageSpec.hidden_ix2]
  unfold SageSpec.lin
  rw [val_main_v55_apply, val_main_v54_apply, val_main_v51_apply, val_main_v48_apply, val_main_v50_apply, l2_bias, l2_zero,
    Ideal.maximumf_def, Ideal.addf_def, Ideal.addf_def]
  have e1 : (∑ k : Fin 128, val_main_v27 (F := Ideal) x0 x1 x2 x3 x4 x5 (lidx_main_v48 (ix2 p q) k) * val_main_v47 (F := Ideal) x6 (ridx_main_v48 (ix2 p q) k))
      = ∑ k : Fin 128, val_main_v27 (F := Ideal) x0 x1 x2 x3 x4 x5 (ix2 p k) * x6 (ix2 q k) :=
    Finset.sum_congr rfl fun k _ => by rw [l2_lidx, l2_ws]
  have e2 : (∑ k : Fin 128, val_main_v46 (F := Ideal) x0 x1 x2 x3 x4 x5 (lidx_main_v50 (ix2 p q) k) * val_main_v49 (F := Ideal) x7 (ridx_main_v50 (ix2 p q) k))
      = ∑ k : Fin 128, SageSpec.mean (val_main_v37 (F := Ideal) x0 x1 x2 x3 x4 x5) (val_main_v41 (F := Ideal) x2) (ix2 p k) * x7 (ix2 q k) :=
    Finset.sum_congr rfl fun k _ => by rw [l2_lidx', l2_mean, l2_wn]
  rw [e1, e2]

/-! ### Layer 3: the same stages over layer 2's output, with 64 output features and no clamp -/

/-- The left operand of the first product is read at `(p, k)`. -/
private theorem l3_lidx (p : Fin 100000) (q : Fin 64) (k : Fin 128) : lidx_main_v76 (ix2 p q) k = ix2 p k :=
  funext fun a => Fin.ext (by match a with | ⟨0, _⟩ => rfl | ⟨1, _⟩ => rfl)

/-- The left operand of the second product is read at `(p, k)`. -/
private theorem l3_lidx' (p : Fin 100000) (q : Fin 64) (k : Fin 128) : lidx_main_v78 (ix2 p q) k = ix2 p k :=
  funext fun a => Fin.ext (by match a with | ⟨0, _⟩ => rfl | ⟨1, _⟩ => rfl)

/-- The transposed self weight at `(k, q)` is the weight at `(q, k)`. -/
private theorem l3_ws (x9 : (⟨S64x128, .f32⟩ : BufTy).Contents (Elt Ideal)) (p : Fin 100000) (q : Fin 64) (k : Fin 128) :
    val_main_v75 (F := Ideal) x9 (ridx_main_v76 (ix2 p q) k) = x9 (ix2 q k) := by
  rw [val_main_v75_apply]
  exact congrArg x9 (funext fun a => Fin.ext (by match a with | ⟨0, _⟩ => rfl | ⟨1, _⟩ => rfl))

/-- The transposed neighbour weight at `(k, q)` is the weight at `(q, k)`. -/
private theorem l3_wn (x10 : (⟨S64x128, .f32⟩ : BufTy).Contents (Elt Ideal)) (p : Fin 100000) (q : Fin 64) (k : Fin 128) :
    val_main_v77 (F := Ideal) x10 (ridx_main_v78 (ix2 p q) k) = x10 (ix2 q k) := by
  rw [val_main_v77_apply]
  exact congrArg x10 (funext fun a => Fin.ext (by match a with | ⟨0, _⟩ => rfl | ⟨1, _⟩ => rfl))

/-- The broadcast bias at `(p, q)` is the bias at `q`. -/
private theorem l3_bias (x11 : (⟨S64, .f32⟩ : BufTy).Contents (Elt Ideal)) (p : Fin 100000) (q : Fin 64) :
    val_main_v81 (F := Ideal) x11 (ix2 p q) = x11 (ix1 q) := by
  rw [val_main_v81_apply, val_main_v80_apply]
  exact congrArg x11 (funext fun a => Fin.ext (by match a with | ⟨0, _⟩ => rfl))

/-- The quotient stage is the neighbour mean of layer 2's output. -/
private theorem l3_mean (x0 : (⟨S100000x128, .f32⟩ : BufTy).Contents (Elt Ideal)) (x1 x2 : (⟨S600000, .i32⟩ : BufTy).Contents (Elt Ideal))
    (x3 x4 : (⟨S128x128, .f32⟩ : BufTy).Contents (Elt Ideal)) (x5 : (⟨S128, .f32⟩ : BufTy).Contents (Elt Ideal))
    (x6 x7 : (⟨S128x128, .f32⟩ : BufTy).Contents (Elt Ideal)) (x8 : (⟨S128, .f32⟩ : BufTy).Contents (Elt Ideal)) (p : Fin 100000) (k : Fin 128) :
    val_main_v74 (F := Ideal) x0 x1 x2 x3 x4 x5 x6 x7 x8 (ix2 p k)
      = SageSpec.mean (val_main_v65 (F := Ideal) x0 x1 x2 x3 x4 x5 x6 x7 x8) (val_main_v69 (F := Ideal) x2) (ix2 p k) := by
  rw [val_main_v74_apply, val_main_v73_apply, val_main_v72_apply, val_main_v71_apply, val_main_v70_apply,
    val_main_cst_15_apply, Ideal.hostDivf_def, Ideal.maximumf_def, Ideal.ofBits_def, SageSpec.one_f32]
  unfold SageSpec.mean
  exact congrArg (fun j => Ideal.div (val_main_v65 (F := Ideal) x0 x1 x2 x3 x4 x5 x6 x7 x8 (ix2 p k)) (max (val_main_v69 (F := Ideal) x2 j) 1))
    (funext fun a => Fin.ext (by match a with | ⟨0, _⟩ => rfl))

/-- Layer 3 (no clamp, 64 output features), over layer 2's output. -/
theorem layer3 (x0 : (⟨S100000x128, .f32⟩ : BufTy).Contents (Elt Ideal)) (x1 x2 : (⟨S600000, .i32⟩ : BufTy).Contents (Elt Ideal)) (x3 x4 : (⟨S128x128, .f32⟩ : BufTy).Contents (Elt Ideal)) (x5 : (⟨S128, .f32⟩ : BufTy).Contents (Elt Ideal)) (x6 x7 : (⟨S128x128, .f32⟩ : BufTy).Contents (Elt Ideal)) (x8 : (⟨S128, .f32⟩ : BufTy).Contents (Elt Ideal)) (x9 x10 : (⟨S64x128, .f32⟩ : BufTy).Contents (Elt Ideal)) (x11 : (⟨S64, .f32⟩ : BufTy).Contents (Elt Ideal)) :
    val_main_v82 (F := Ideal) x0 x1 x2 x3 x4 x5 x6 x7 x8 x9 x10 x11
      = SageSpec.last (val_main_v55 (F := Ideal) x0 x1 x2 x3 x4 x5 x6 x7 x8)
          (SageSpec.mean (val_main_v65 (F := Ideal) x0 x1 x2 x3 x4 x5 x6 x7 x8) (val_main_v69 (F := Ideal) x2)) x9 x10 x11 := by
  funext i
  obtain ⟨p, q, rfl⟩ : ∃ (p : Fin 100000) (q : Fin 64), i = ix2 p q := ⟨i 0, i 1, eq_ix2 i⟩
  rw [SageSpec.last_ix2]
  unfold SageSpec.lin
  rw [val_main_v82_apply, val_main_v79_apply, val_main_v76_apply, val_main_v78_apply, l3_bias,
    Ideal.addf_def, Ideal.addf_def]
  have e1 : (∑ k : Fin 128, val_main_v55 (F := Ideal) x0 x1 x2 x3 x4 x5 x6 x7 x8 (lidx_main_v76 (ix2 p q) k) * val_main_v75 (F := Ideal) x9 (ridx_main_v76 (ix2 p q) k))
      = ∑ k : Fin 128, val_main_v55 (F := Ideal) x0 x1 x2 x3 x4 x5 x6 x7 x8 (ix2 p k) * x9 (ix2 q k) :=
    Finset.sum_congr rfl fun k _ => by rw [l3_lidx, l3_ws]
  have e2 : (∑ k : Fin 128, val_main_v74 (F := Ideal) x0 x1 x2 x3 x4 x5 x6 x7 x8 (lidx_main_v78 (ix2 p q) k) * val_main_v77 (F := Ideal) x10 (ridx_main_v78 (ix2 p q) k))
      = ∑ k : Fin 128, SageSpec.mean (val_main_v65 (F := Ideal) x0 x1 x2 x3 x4 x5 x6 x7 x8) (val_main_v69 (F := Ideal) x2) (ix2 p k) * x10 (ix2 q k) :=
    Finset.sum_congr rfl fun k _ => by rw [l3_lidx', l3_mean, l3_wn]
  rw [e1, e2]

/-- The later layers' neighbour sums and degrees are the first layer's functions of their inputs. -/
theorem sum2_eq (x0 : (⟨S100000x128, .f32⟩ : BufTy).Contents (Elt Ideal)) (x1 x2 : (⟨S600000, .i32⟩ : BufTy).Contents (Elt Ideal)) (x3 x4 : (⟨S128x128, .f32⟩ : BufTy).Contents (Elt Ideal)) (x5 : (⟨S128, .f32⟩ : BufTy).Contents (Elt Ideal)) :
    val_main_v37 (F := Ideal) x0 x1 x2 x3 x4 x5 = val_main_v9 (F := Ideal) (val_main_v27 (F := Ideal) x0 x1 x2 x3 x4 x5) x1 x2 := rfl
theorem sum3_eq (x0 : (⟨S100000x128, .f32⟩ : BufTy).Contents (Elt Ideal)) (x1 x2 : (⟨S600000, .i32⟩ : BufTy).Contents (Elt Ideal)) (x3 x4 : (⟨S128x128, .f32⟩ : BufTy).Contents (Elt Ideal)) (x5 : (⟨S128, .f32⟩ : BufTy).Contents (Elt Ideal)) (x6 x7 : (⟨S128x128, .f32⟩ : BufTy).Contents (Elt Ideal)) (x8 : (⟨S128, .f32⟩ : BufTy).Contents (Elt Ideal)) :
    val_main_v65 (F := Ideal) x0 x1 x2 x3 x4 x5 x6 x7 x8 = val_main_v9 (F := Ideal) (val_main_v55 (F := Ideal) x0 x1 x2 x3 x4 x5 x6 x7 x8) x1 x2 := rfl
theorem deg2_eq (x2 : (⟨S600000, .i32⟩ : BufTy).Contents (Elt Ideal)) : val_main_v41 (F := Ideal) x2 = val_main_v13 (F := Ideal) x2 := rfl
theorem deg3_eq (x2 : (⟨S600000, .i32⟩ : BufTy).Contents (Elt Ideal)) : val_main_v69 (F := Ideal) x2 = val_main_v13 (F := Ideal) x2 := rfl

end Cert.ReferenceIdeal.Layers

end
-- ==== Proof.Bridge.lean ====
/-
  The two programs compute one function of the arguments. The reference's result is, by its three layer lemmas, the
  specification's network over its own gather / scatter-add terms; the kernel program's result buffer is the same
  network over the kernel program's terms (the scaled sums read as neighbour means). The gather and scatter-add terms
  of the two programs are the same operations on the same operands, so the two results are equal once the arguments
  agree.
-/
import proofs.«128506_j50714973831907_1_alg».proof.Proof.KValue
import proofs.«128506_j50714973831907_1_alg».proof.Proof.RefLayers

noncomputable section

namespace Cert.Bridge

open Idealize.ShloMosaic Idealize.ShloMosaic.TcCoe Idealize.SL.Sem

/-- The summed neighbour features are one function in both programs: the same scatter-add of the same gather. -/
theorem agg_eq (h : FVec Ideal Cert.KernelIdeal.S100000x128 .f32) (s d : IVec Cert.KernelIdeal.S600000 32) :
    Cert.KernelIdeal.HostVal.aggOf h s d = Cert.ReferenceIdeal.Read.val_main_v9 (F := Ideal) h s d := rfl

/-- The in-degrees are one function in both programs. -/
theorem deg_eq (d : IVec Cert.KernelIdeal.S600000 32) :
    Cert.KernelIdeal.HostVal.degOf d = Cert.ReferenceIdeal.Read.val_main_v13 (F := Ideal) d := rfl

/-- From memories that agree on the arguments, the reference's result term is the kernel program's network output. -/
theorem results_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    Cert.ReferenceIdeal.Value.res_main_v82 (F := Ideal) m' c = Cert.KernelIdeal.NetValue.out m c := by
  obtain ⟨e0, e1, e2, e3, e4, e5, e6, e7, e8, e9, e10, e11⟩ := hagree
  rw [Cert.ReferenceIdeal.Read.val_main_v82_eq, e0, e1, e2, e3, e4, e5, e6, e7, e8, e9, e10, e11]
  rw [Cert.ReferenceIdeal.Layers.layer3, Cert.ReferenceIdeal.Layers.sum3_eq, Cert.ReferenceIdeal.Layers.deg3_eq, Cert.ReferenceIdeal.Layers.layer2, Cert.ReferenceIdeal.Layers.sum2_eq,
    Cert.ReferenceIdeal.Layers.deg2_eq, Cert.ReferenceIdeal.Layers.layer1]
  unfold Cert.KernelIdeal.NetValue.out Cert.KernelIdeal.NetValue.h2 Cert.KernelIdeal.NetValue.h1
  simp only [agg_eq, deg_eq]

end Cert.Bridge

end
-- ==== Proof.lean ====
/-
  The certificate of a three-layer GraphSAGE network (mean aggregation) written as three tiled dense kernels with the
  gather and scatter-add left to the host, against its plain reference.

  Per layer both programs compute, for node `p` and output feature `q`,

      (∑ k, h p k · Ws q k) + (∑ k, mean p k · Wn q k) + b q,      mean p k = agg p k / max (deg p) 1,

  clamped below at zero in the two hidden layers, where `agg` adds the rows `h[src]` into the rows `dst` and `deg`
  counts the edges into each node. The kernel program differs from the reference in three ways, none of which changes
  the value on the extended reals: it rounds the matrix operands to a narrower format first (the identity there); it
  tiles the nodes in 50 blocks of 2000 (every node lies in exactly one block, and the weights and the bias are read
  whole at every block); and it multiplies the sum by `1 / max (deg p) 1`, computed once, where the reference divides
  by `max (deg p) 1` in every layer. Since `max e 1` is never zero, `x · (1 / d) = x / d` holds for `d = max e 1`
  at every extended real `x` and `e`, so the equality needs no finiteness of the inputs.

  Frames: the two kernel programs' from the frame over the program's segments, the reference's from its run.
  Value: the kernel program's result buffer is read back through the six segment boundaries to the launch memory
  (Proof/KValue.lean), the reference's through its three layers (Proof/RefLayers.lean), and the two meet in the shared
  specification (Proof/SageSpec.lean, Proof/Bridge.lean).
-/
import proofs.«128506_j50714973831907_1_alg».proof.Defs
import proofs.«128506_j50714973831907_1_alg».proof.Proof.Gen.Kernel
import proofs.«128506_j50714973831907_1_alg».proof.Proof.Gen.Kernel.Skeleton
import proofs.«128506_j50714973831907_1_alg».proof.Proof.KernelLaunch
import proofs.«128506_j50714973831907_1_alg».proof.Proof.Gen.Kernel.Points
import proofs.«128506_j50714973831907_1_alg».proof.Proof.KernelFrame
import proofs.«128506_j50714973831907_1_alg».proof.Proof.Gen.KernelIdeal
import proofs.«128506_j50714973831907_1_alg».proof.Proof.Gen.KernelIdeal.Skeleton
import proofs.«128506_j50714973831907_1_alg».proof.Proof.KernelIdealLaunch
import proofs.«128506_j50714973831907_1_alg».proof.Proof.Gen.KernelIdeal.Points
import proofs.«128506_j50714973831907_1_alg».proof.Proof.KernelIdealFrame
import proofs.«128506_j50714973831907_1_alg».proof.Proof.KernelIdealRun
import proofs.«128506_j50714973831907_1_alg».proof.Proof.Gen.ReferenceIdeal
import proofs.«128506_j50714973831907_1_alg».proof.Proof.Gen.ReferenceIdeal.Run
import proofs.«128506_j50714973831907_1_alg».proof.Proof.Gen.Pre_finite_inputs
import proofs.«128506_j50714973831907_1_alg».proof.Proof.Bridge
import Idealize.ShloMosaic.Adequacy
import Idealize.ShloMosaic.Init

noncomputable section

namespace Cert.Proof

open Idealize.ShloMosaic Idealize.SL.Sem

/-- The word-level kernel program terminates without a fault and leaves its arguments as launched. -/
theorem frame_kernel : Cert.frame_Kernel := fun m ρ _ => Cert.Kernel.GenP.frame m ρ

/-- So does its idealization. -/
theorem frame_kernelIdeal : Cert.frame_KernelIdeal := fun m ρ _ => Cert.KernelIdeal.GenP.frame m ρ

/-- So does the reference: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both idealized programs end with the network's output
    (`NetValue.out`) in their result buffers. -/
theorem algebraic : Cert.algebraic_KernelIdeal_ReferenceIdeal := by
  intro m ρ m' ρ' _ hagree
  refine ⟨fun c => Cert.KernelIdeal.NetValue.out m c, ?_, ?_⟩
  · exact (θ_run Cert.KernelIdeal.defs _ _).mono
      (fun r h c => ⟨(h c).1.trans (Cert.KernelIdeal.NetValue.result m ρ c), (h c).2⟩)
      (Cert.KernelIdeal.GenP.run_val (F := Ideal) m ρ)
  · exact (θ_run Cert.ReferenceIdeal.defs _ _).mono
      (fun r h c => ⟨(h c).1.trans (Cert.Bridge.results_agree m m' c (hagree c)), (h c).2⟩)
      (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
